-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S320000 : Shape := ⟨1, ![320000]⟩
abbrev S2x100000 : Shape := ⟨2, ![2, 100000]⟩
abbrev S20000x256 : Shape := ⟨2, ![20000, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg10 : FVec F S256x256 .f32) (main_arg11 : FVec F S256 .f32) (main_arg12 : FVec F S256x1 .f32) (main_arg13 : FVec F S1 .f32) (main_v33 : IVec S_ 1) : IVec S_ 1 :=
  let main_v34 : FVec F S256x256 .f32 := Host.absf main_arg10
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg11
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x1 .f32 := Host.absf main_arg12
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S1 .f32 := Host.absf main_arg13
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg7 : FVec F S256x256 .f32) (main_arg8 : FVec F S256 .f32) (main_arg9 : FVec F S256x256 .f32) (main_arg10 : FVec F S256x256 .f32) (main_arg11 : FVec F S256 .f32) (main_arg12 : FVec F S256x1 .f32) (main_arg13 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg7
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg8
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg9
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg10 main_arg11 main_arg12 main_arg13 main_v33

def fn {F : FTy → Type} [FloatOps F] (main_arg0 : IVec S320000 32) (main_arg1 : IVec S320000 32) (main_arg2 : IVec S2x100000 32) (main_arg3 : FVec F S20000x256 .f32) (main_arg4 : FVec F S256x256 .f32) (main_arg5 : FVec F S256 .f32) (main_arg6 : FVec F S256x256 .f32) (main_arg7 : FVec F S256x256 .f32) (main_arg8 : FVec F S256 .f32) (main_arg9 : FVec F S256x256 .f32) (main_arg10 : FVec F S256x256 .f32) (main_arg11 : FVec F S256 .f32) (main_arg12 : FVec F S256x1 .f32) (main_arg13 : FVec F S1 .f32) : IVec S_ 1 :=
  let main_v0 : FVec F S20000x256 .f32 := Host.absf main_arg3
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S256x256 .f32 := Host.absf main_arg4
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg6
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg7 main_arg8 main_arg9 main_arg10 main_arg11 main_arg12 main_arg13 main_v13 main_v16
-- ==== Kernel.lean ====
abbrev S320000 : Shape := ⟨1, ![320000]⟩
abbrev S2x100000 : Shape := ⟨2, ![2, 100000]⟩
abbrev S20000x256 : Shape := ⟨2, ![20000, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩
abbrev S320000x1 : Shape := ⟨2, ![320000, 1]⟩
abbrev S320000x256 : Shape := ⟨2, ![320000, 256]⟩
abbrev S20000 : Shape := ⟨1, ![20000]⟩
abbrev S20000x1 : Shape := ⟨2, ![20000, 1]⟩
abbrev S2000x256 : Shape := ⟨2, ![2000, 256]⟩
abbrev S1x256 : Shape := ⟨2, ![1, 256]⟩
abbrev S1x100000 : Shape := ⟨2, ![1, 100000]⟩
abbrev S100000 : Shape := ⟨1, ![100000]⟩
abbrev S100000x1 : Shape := ⟨2, ![100000, 1]⟩
abbrev S100000x256 : Shape := ⟨2, ![100000, 256]⟩
abbrev S5000x256 : Shape := ⟨2, ![5000, 256]⟩
abbrev S5000x1 : Shape := ⟨2, ![5000, 1]⟩
abbrev S1x1 : Shape := ⟨2, ![1, 1]⟩

abbrev nBuf : Space → Nat
  | .hbm => 89
  | .vmem => 28
  | .smem => 0
  | _ => 0

abbrev bufTy : (tb : Table) → Fin (tcTables nBuf tb) → BufTy
  | .hbm, ⟨0, _⟩ => ⟨S320000, .i32⟩
  | .hbm, ⟨1, _⟩ => ⟨S320000, .i32⟩
  | .hbm, ⟨2, _⟩ => ⟨S2x100000, .i32⟩
  | .hbm, ⟨3, _⟩ => ⟨S20000x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256, .f32⟩
  | .hbm, ⟨12, _⟩ => ⟨S256x1, .f32⟩
  | .hbm, ⟨13, _⟩ => ⟨S1, .f32⟩
  | .hbm, ⟨14, _⟩ => ⟨S_, .i32⟩
  | .hbm, ⟨15, _⟩ => ⟨S320000, .i32⟩
  | .hbm, ⟨16, _⟩ => ⟨S320000, .i1⟩
  | .hbm, ⟨17, _⟩ => ⟨S_, .i32⟩
  | .hbm, ⟨18, _⟩ => ⟨S320000, .i32⟩
  | .hbm, ⟨19, _⟩ => ⟨S320000, .i32⟩
  | .hbm, ⟨20, _⟩ => ⟨S320000, .i32⟩
  | .hbm, ⟨21, _⟩ => ⟨S320000x1, .i32⟩
  | .hbm, ⟨22, _⟩ => ⟨S320000x256, .f32⟩
  | .hbm, ⟨23, _⟩ => ⟨S_, .f32⟩
  | .hbm, ⟨24, _⟩ => ⟨S20000x256, .f32⟩
  | .hbm, ⟨25, _⟩ => ⟨S320000x1, .i32⟩
  | .hbm, ⟨26, _⟩ => ⟨S20000x256, .f32⟩
  | .hbm, ⟨27, _⟩ => ⟨S_, .f32⟩
  | .hbm, ⟨28, _⟩ => ⟨S320000, .f32⟩
  | .hbm, ⟨29, _⟩ => ⟨S_, .f32⟩
  | .hbm, ⟨30, _⟩ => ⟨S20000, .f32⟩
  | .hbm, ⟨31, _⟩ => ⟨S320000x1, .i32⟩
  | .hbm, ⟨32, _⟩ => ⟨S20000, .f32⟩
  | .hbm, ⟨33, _⟩ => ⟨S_, .f32⟩
  | .hbm, ⟨34, _⟩ => ⟨S20000, .f32⟩
  | .hbm, ⟨35, _⟩ => ⟨S20000, .f32⟩
  | .hbm, ⟨36, _⟩ => ⟨S20000x1, .f32⟩
  | .hbm, ⟨37, _⟩ => ⟨S20000x256, .f32⟩
  | .hbm, ⟨38, _⟩ => ⟨S20000x256, .f32⟩
  | .hbm, ⟨39, _⟩ => ⟨S20000x256, .f32⟩
  | .hbm, ⟨40, _⟩ => ⟨S_, .i32⟩
  | .hbm, ⟨41, _⟩ => ⟨S320000, .i32⟩
  | .hbm, ⟨42, _⟩ => ⟨S320000, .i1⟩
  | .hbm, ⟨43, _⟩ => ⟨S_, .i32⟩
  | .hbm, ⟨44, _⟩ => ⟨S320000, .i32⟩
  | .hbm, ⟨45, _⟩ => ⟨S320000, .i32⟩
  | .hbm, ⟨46, _⟩ => ⟨S320000, .i32⟩
  | .hbm, ⟨47, _⟩ => ⟨S320000x1, .i32⟩
  | .hbm, ⟨48, _⟩ => ⟨S320000x256, .f32⟩
  | .hbm, ⟨49, _⟩ => ⟨S_, .f32⟩
  | .hbm, ⟨50, _⟩ => ⟨S20000x256, .f32⟩
  | .hbm, ⟨51, _⟩ => ⟨S320000x1, .i32⟩
  | .hbm, ⟨52, _⟩ => ⟨S20000x256, .f32⟩
  | .hbm, ⟨53, _⟩ => ⟨S_, .f32⟩
  | .hbm, ⟨54, _⟩ => ⟨S320000, .f32⟩
  | .hbm, ⟨55, _⟩ => ⟨S_, .f32⟩
  | .hbm, ⟨56, _⟩ => ⟨S20000, .f32⟩
  | .hbm, ⟨57, _⟩ => ⟨S320000x1, .i32⟩
  | .hbm, ⟨58, _⟩ => ⟨S20000, .f32⟩
  | .hbm, ⟨59, _⟩ => ⟨S_, .f32⟩
  | .hbm, ⟨60, _⟩ => ⟨S20000, .f32⟩
  | .hbm, ⟨61, _⟩ => ⟨S20000, .f32⟩
  | .hbm, ⟨62, _⟩ => ⟨S20000x1, .f32⟩
  | .hbm, ⟨63, _⟩ => ⟨S20000x256, .f32⟩
  | .hbm, ⟨64, _⟩ => ⟨S20000x256, .f32⟩
  | .hbm, ⟨65, _⟩ => ⟨S20000x256, .f32⟩
  | .hbm, ⟨66, _⟩ => ⟨S1x100000, .i32⟩
  | .hbm, ⟨67, _⟩ => ⟨S100000, .i32⟩
  | .hbm, ⟨68, _⟩ => ⟨S_, .i32⟩
  | .hbm, ⟨69, _⟩ => ⟨S100000, .i32⟩
  | .hbm, ⟨70, _⟩ => ⟨S100000, .i1⟩
  | .hbm, ⟨71, _⟩ => ⟨S_, .i32⟩
  | .hbm, ⟨72, _⟩ => ⟨S100000, .i32⟩
  | .hbm, ⟨73, _⟩ => ⟨S100000, .i32⟩
  | .hbm, ⟨74, _⟩ => ⟨S100000, .i32⟩
  | .hbm, ⟨75, _⟩ => ⟨S100000x1, .i32⟩
  | .hbm, ⟨76, _⟩ => ⟨S100000x256, .f32⟩
  | .hbm, ⟨77, _⟩ => ⟨S1x100000, .i32⟩
  | .hbm, ⟨78, _⟩ => ⟨S100000, .i32⟩
  | .hbm, ⟨79, _⟩ => ⟨S_, .i32⟩
  | .hbm, ⟨80, _⟩ => ⟨S100000, .i32⟩
  | .hbm, ⟨81, _⟩ => ⟨S100000, .i1⟩
  | .hbm, ⟨82, _⟩ => ⟨S_, .i32⟩
  | .hbm, ⟨83, _⟩ => ⟨S100000, .i32⟩
  | .hbm, ⟨84, _⟩ => ⟨S100000, .i32⟩
  | .hbm, ⟨85, _⟩ => ⟨S100000, .i32⟩
  | .hbm, ⟨86, _⟩ => ⟨S100000x1, .i32⟩
  | .hbm, ⟨87, _⟩ => ⟨S100000x256, .f32⟩
  | .hbm, ⟨88, _⟩ => ⟨S100000x1, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256, .f32⟩
  | .local _ .vmem, ⟨15, _⟩ => ⟨S256x256, .f32⟩
  | .local _ .vmem, ⟨16, _⟩ => ⟨S2000x256, .f32⟩
  | .local _ .vmem, ⟨17, _⟩ => ⟨S2000x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S256x256, .f32⟩
  | .local _ .vmem, ⟨23, _⟩ => ⟨S256, .f32⟩
  | .local _ .vmem, ⟨24, _⟩ => ⟨S256x1, .f32⟩
  | .local _ .vmem, ⟨25, _⟩ => ⟨S1, .f32⟩
  | .local _ .vmem, ⟨26, _⟩ => ⟨S5000x1, .f32⟩
  | .local _ .vmem, ⟨27, _⟩ => ⟨S5000x1, .f32⟩
  | _, _ => ⟨S320000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_7 : Ref sig .tc := ⟨.hbm, 53, rfl⟩
abbrev main_v30 : Ref sig .tc := ⟨.hbm, 54, rfl⟩
abbrev main_cst_8 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_9 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_10 : Ref sig .tc := ⟨.hbm, 68, rfl⟩
abbrev main_v42 : Ref sig .tc := ⟨.hbm, 69, rfl⟩
abbrev main_v43 : Ref sig .tc := ⟨.hbm, 70, rfl⟩
abbrev main_c_11 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_12 : Ref sig .tc := ⟨.hbm, 79, rfl⟩
abbrev main_v51 : Ref sig .tc := ⟨.hbm, 80, rfl⟩
abbrev main_v52 : Ref sig .tc := ⟨.hbm, 81, rfl⟩
abbrev main_c_13 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  broadcasts_S1x256_S5000x256 : S1x256.Broadcasts S5000x256
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S20000_S320000x1_S320000_n_0_0_1_wf : ScatterDims.WF S20000 S320000x1 S320000 [] [0] [0] 1
  dot_S2000x256_S256x256_S2000x256_1_0_0_1_n_n_wf : DotDims.WF S2000x256 S256x256 S2000x256 [1] [0] [0] [1] [] []
  gather_S20000x256_S100000x1_S100000x256_1_0_n_n_0_1_1256_wf : GatherDims.WF S20000x256 S100000x1 S100000x256 [1] [0] [] [0] [] 1 ![1, 256]
  dot_S5000x256_S256x256_S5000x256_1_0_0_1_n_n_wf : DotDims.WF S5000x256 S256x256 S5000x256 [1] [0] [0] [1] [] []
  dot_S5000x256_S256x1_S5000x1_1_0_0_1_n_n_wf : DotDims.WF S5000x256 S256x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S20000x256.size a
  hwx0_1 : ∀ i : grid0.Coords, EltTy.bits .f32 = 32 ∨ (Rect.block (s := S20000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S20000x256.size a
  hwx0_5 : ∀ i : grid0.Coords, EltTy.bits .f32 = 32 ∨ (Rect.block (s := S20000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S20000x256.size a
  hwx1_1 : ∀ i : grid1.Coords, EltTy.bits .f32 = 32 ∨ (Rect.block (s := S20000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S20000x256.size a
  hwx1_5 : ∀ i : grid1.Coords, EltTy.bits .f32 = 32 ∨ (Rect.block (s := S20000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .f32 = 32 ∨ (Rect.block (s := S100000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S100000x256.size a
  hwx2_1 : ∀ i : grid2.Coords, EltTy.bits .f32 = 32 ∨ (Rect.block (s := S100000x256) S5000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x1.size a ≤ S256x1.size a
  hwx2_4 : ∀ i : grid2.Coords, EltTy.bits .f32 = 32 ∨ (Rect.block (s := S256x1) S256x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1.size a ≤ S1.size a
  hwx2_5 : ∀ i : grid2.Coords, EltTy.bits .f32 = 32 ∨ (Rect.block (s := S1) S1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x1.size a ≤ S100000x1.size a
  hwx2_6 : ∀ i : grid2.Coords, EltTy.bits .f32 = 32 ∨ (Rect.block (s := S100000x1) S5000x1.size (cc2_transform_6 i) (hinb2_6 i)).WholeWords (EltTy.packing .f32)

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S100000x1_S100000x256_1_0_n_n_0_1_1256 : GatherDims S20000x256 S100000x1 S100000x256 where
  offsetDims := [1]
  collapsedSliceDims := [0]
  operandBatchingDims := []
  startIndicesBatchingDims := []
  startIndexMap := [0]
  indexVectorDim := 1
  sliceSizes := ![1, 256]
  wf := gather_S20000x256_S100000x1_S100000x256_1_0_n_n_0_1_1256_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x1_S5000x1_1_0_0_1_n_n : DotDims S5000x256 S256x1 S5000x1 where
  lhsContracting := [1]
  rhsContracting := [0]
  lhsNonContracting := [0]
  rhsNonContracting := [1]
  lhsBatch := []
  rhsBatch := []
  wf := dot_S5000x256_S256x1_S5000x1_1_0_0_1_n_n_wf

abbrev win0_0 : Pipeline.Window sig grid0 :=
  Pipeline.Window.ofSpec (Memref.whole main_v18) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v48) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S256x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S5000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S320000 : Shape := ⟨1, ![320000]⟩
abbrev S2x100000 : Shape := ⟨2, ![2, 100000]⟩
abbrev S20000x256 : Shape := ⟨2, ![20000, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩
abbrev S320000x1 : Shape := ⟨2, ![320000, 1]⟩
abbrev S320000x256 : Shape := ⟨2, ![320000, 256]⟩
abbrev S20000 : Shape := ⟨1, ![20000]⟩
abbrev S20000x1 : Shape := ⟨2, ![20000, 1]⟩
abbrev S1x256 : Shape := ⟨2, ![1, 256]⟩
abbrev S1x100000 : Shape := ⟨2, ![1, 100000]⟩
abbrev S100000 : Shape := ⟨1, ![100000]⟩
abbrev S100000x1 : Shape := ⟨2, ![100000, 1]⟩
abbrev S100000x256 : Shape := ⟨2, ![100000, 256]⟩
abbrev S1x1 : Shape := ⟨2, ![1, 1]⟩

abbrev nBuf : Space → Nat
  | .hbm => 121
  | .vmem => 0
  | .smem => 0
  | _ => 0

abbrev bufTy : (tb : Table) → Fin (tcTables nBuf tb) → BufTy
  | .hbm, ⟨0, _⟩ => ⟨S320000, .i32⟩
  | .hbm, ⟨1, _⟩ => ⟨S320000, .i32⟩
  | .hbm, ⟨2, _⟩ => ⟨S2x100000, .i32⟩
  | .hbm, ⟨3, _⟩ => ⟨S20000x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256, .f32⟩
  | .hbm, ⟨12, _⟩ => ⟨S256x1, .f32⟩
  | .hbm, ⟨13, _⟩ => ⟨S1, .f32⟩
  | .hbm, ⟨14, _⟩ => ⟨S_, .i32⟩
  | .hbm, ⟨15, _⟩ => ⟨S320000, .i32⟩
  | .hbm, ⟨16, _⟩ => ⟨S320000, .i1⟩
  | .hbm, ⟨17, _⟩ => ⟨S_, .i32⟩
  | .hbm, ⟨18, _⟩ => ⟨S320000, .i32⟩
  | .hbm, ⟨19, _⟩ => ⟨S320000, .i32⟩
  | .hbm, ⟨20, _⟩ => ⟨S320000, .i32⟩
  | .hbm, ⟨21, _⟩ => ⟨S320000x1, .i32⟩
  | .hbm, ⟨22, _⟩ => ⟨S320000x256, .f32⟩
  | .hbm, ⟨23, _⟩ => ⟨S_, .f32⟩
  | .hbm, ⟨24, _⟩ => ⟨S20000x256, .f32⟩
  | .hbm, ⟨25, _⟩ => ⟨S320000x1, .i32⟩
  | .hbm, ⟨26, _⟩ => ⟨S20000x256, .f32⟩
  | .hbm, ⟨27, _⟩ => ⟨S_, .f32⟩
  | .hbm, ⟨28, _⟩ => ⟨S320000, .f32⟩
  | .hbm, ⟨29, _⟩ => ⟨S_, .f32⟩
  | .hbm, ⟨30, _⟩ => ⟨S20000, .f32⟩
  | .hbm, ⟨31, _⟩ => ⟨S320000x1, .i32⟩
  | .hbm, ⟨32, _⟩ => ⟨S20000, .f32⟩
  | .hbm, ⟨33, _⟩ => ⟨S_, .f32⟩
  | .hbm, ⟨34, _⟩ => ⟨S20000, .f32⟩
  | .hbm, ⟨35, _⟩ => ⟨S20000, .f32⟩
  | .hbm, ⟨36, _⟩ => ⟨S20000x1, .f32⟩
  | .hbm, ⟨37, _⟩ => ⟨S20000x256, .f32⟩
  | .hbm, ⟨38, _⟩ => ⟨S20000x256, .f32⟩
  | .hbm, ⟨39, _⟩ => ⟨S20000x256, .f32⟩
  | .hbm, ⟨40, _⟩ => ⟨S1x256, .f32⟩
  | .hbm, ⟨41, _⟩ => ⟨S20000x256, .f32⟩
  | .hbm, ⟨42, _⟩ => ⟨S20000x256, .f32⟩
  | .hbm, ⟨43, _⟩ => ⟨S20000x256, .f32⟩
  | .hbm, ⟨44, _⟩ => ⟨S20000x256, .f32⟩
  | .hbm, ⟨45, _⟩ => ⟨S_, .f32⟩
  | .hbm, ⟨46, _⟩ => ⟨S20000x256, .f32⟩
  | .hbm, ⟨47, _⟩ => ⟨S20000x256, .f32⟩
  | .hbm, ⟨48, _⟩ => ⟨S_, .i32⟩
  | .hbm, ⟨49, _⟩ => ⟨S320000, .i32⟩
  | .hbm, ⟨50, _⟩ => ⟨S320000, .i1⟩
  | .hbm, ⟨51, _⟩ => ⟨S_, .i32⟩
  | .hbm, ⟨52, _⟩ => ⟨S320000, .i32⟩
  | .hbm, ⟨53, _⟩ => ⟨S320000, .i32⟩
  | .hbm, ⟨54, _⟩ => ⟨S320000, .i32⟩
  | .hbm, ⟨55, _⟩ => ⟨S320000x1, .i32⟩
  | .hbm, ⟨56, _⟩ => ⟨S320000x256, .f32⟩
  | .hbm, ⟨57, _⟩ => ⟨S_, .f32⟩
  | .hbm, ⟨58, _⟩ => ⟨S20000x256, .f32⟩
  | .hbm, ⟨59, _⟩ => ⟨S320000x1, .i32⟩
  | .hbm, ⟨60, _⟩ => ⟨S20000x256, .f32⟩
  | .hbm, ⟨61, _⟩ => ⟨S_, .f32⟩
  | .hbm, ⟨62, _⟩ => ⟨S320000, .f32⟩
  | .hbm, ⟨63, _⟩ => ⟨S_, .f32⟩
  | .hbm, ⟨64, _⟩ => ⟨S20000, .f32⟩
  | .hbm, ⟨65, _⟩ => ⟨S320000x1, .i32⟩
  | .hbm, ⟨66, _⟩ => ⟨S20000, .f32⟩
  | .hbm, ⟨67, _⟩ => ⟨S_, .f32⟩
  | .hbm, ⟨68, _⟩ => ⟨S20000, .f32⟩
  | .hbm, ⟨69, _⟩ => ⟨S20000, .f32⟩
  | .hbm, ⟨70, _⟩ => ⟨S20000x1, .f32⟩
  | .hbm, ⟨71, _⟩ => ⟨S20000x256, .f32⟩
  | .hbm, ⟨72, _⟩ => ⟨S20000x256, .f32⟩
  | .hbm, ⟨73, _⟩ => ⟨S20000x256, .f32⟩
  | .hbm, ⟨74, _⟩ => ⟨S1x256, .f32⟩
  | .hbm, ⟨75, _⟩ => ⟨S20000x256, .f32⟩
  | .hbm, ⟨76, _⟩ => ⟨S20000x256, .f32⟩
  | .hbm, ⟨77, _⟩ => ⟨S20000x256, .f32⟩
  | .hbm, ⟨78, _⟩ => ⟨S20000x256, .f32⟩
  | .hbm, ⟨79, _⟩ => ⟨S1x100000, .i32⟩
  | .hbm, ⟨80, _⟩ => ⟨S100000, .i32⟩
  | .hbm, ⟨81, _⟩ => ⟨S_, .i32⟩
  | .hbm, ⟨82, _⟩ => ⟨S100000, .i32⟩
  | .hbm, ⟨83, _⟩ => ⟨S100000, .i1⟩
  | .hbm, ⟨84, _⟩ => ⟨S_, .i32⟩
  | .hbm, ⟨85, _⟩ => ⟨S100000, .i32⟩
  | .hbm, ⟨86, _⟩ => ⟨S100000, .i32⟩
  | .hbm, ⟨87, _⟩ => ⟨S100000, .i32⟩
  | .hbm, ⟨88, _⟩ => ⟨S100000x1, .i32⟩
  | .hbm, ⟨89, _⟩ => ⟨S100000x256, .f32⟩
  | .hbm, ⟨90, _⟩ => ⟨S1x100000, .i32⟩
  | .hbm, ⟨91, _⟩ => ⟨S100000, .i32⟩
  | .hbm, ⟨92, _⟩ => ⟨S_, .i32⟩
  | .hbm, ⟨93, _⟩ => ⟨S100000, .i32⟩
  | .hbm, ⟨94, _⟩ => ⟨S100000, .i1⟩
  | .hbm, ⟨95, _⟩ => ⟨S_, .i32⟩
  | .hbm, ⟨96, _⟩ => ⟨S100000, .i32⟩
  | .hbm, ⟨97, _⟩ => ⟨S100000, .i32⟩
  | .hbm, ⟨98, _⟩ => ⟨S100000, .i32⟩
  | .hbm, ⟨99, _⟩ => ⟨S100000x1, .i32⟩
  | .hbm, ⟨100, _⟩ => ⟨S100000x256, .f32⟩
  | .hbm, ⟨101, _⟩ => ⟨S100000x256, .f32⟩
  | .hbm, ⟨102, _⟩ => ⟨S100000x256, .f32⟩
  | .hbm, ⟨103, _⟩ => ⟨S1x256, .f32⟩
  | .hbm, ⟨104, _⟩ => ⟨S100000x256, .f32⟩
  | .hbm, ⟨105, _⟩ => ⟨S100000x256, .f32⟩
  | .hbm, ⟨106, _⟩ => ⟨S_, .f32⟩
  | .hbm, ⟨107, _⟩ => ⟨S100000x256, .f32⟩
  | .hbm, ⟨108, _⟩ => ⟨S100000x256, .f32⟩
  | .hbm, ⟨109, _⟩ => ⟨S100000x1, .f32⟩
  | .hbm, ⟨110, _⟩ => ⟨S1x1, .f32⟩
  | .hbm, ⟨111, _⟩ => ⟨S100000x1, .f32⟩
  | .hbm, ⟨112, _⟩ => ⟨S100000x1, .f32⟩
  | .hbm, ⟨113, _⟩ => ⟨S100000x1, .f32⟩
  | .hbm, ⟨114, _⟩ => ⟨S100000x1, .f32⟩
  | .hbm, ⟨115, _⟩ => ⟨S_, .f32⟩
  | .hbm, ⟨116, _⟩ => ⟨S100000x1, .f32⟩
  | .hbm, ⟨117, _⟩ => ⟨S100000x1, .f32⟩
  | .hbm, ⟨118, _⟩ => ⟨S_, .f32⟩
  | .hbm, ⟨119, _⟩ => ⟨S100000x1, .f32⟩
  | .hbm, ⟨120, _⟩ => ⟨S100000x1, .f32⟩
  | _, _ => ⟨S320000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call0_cst : Ref sig .tc := ⟨.hbm, 45, rfl⟩
abbrev main_call0_v0 : Ref sig .tc := ⟨.hbm, 46, rfl⟩
abbrev main_v25 : Ref sig .tc := ⟨.hbm, 47, rfl⟩
abbrev main_c_4 : Ref sig .tc := ⟨.hbm, 48, rfl⟩
abbrev main_v26 : Ref sig .tc := ⟨.hbm, 49, rfl⟩
abbrev main_v27 : Ref sig .tc := ⟨.hbm, 50, rfl⟩
abbrev main_c_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_10 : Ref sig .tc := ⟨.hbm, 81, rfl⟩
abbrev main_v53 : Ref sig .tc := ⟨.hbm, 82, rfl⟩
abbrev main_v54 : Ref sig .tc := ⟨.hbm, 83, rfl⟩
abbrev main_c_11 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_12 : Ref sig .tc := ⟨.hbm, 92, rfl⟩
abbrev main_v62 : Ref sig .tc := ⟨.hbm, 93, rfl⟩
abbrev main_v63 : Ref sig .tc := ⟨.hbm, 94, rfl⟩
abbrev main_c_13 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_call1_cst : Ref sig .tc := ⟨.hbm, 106, rfl⟩
abbrev main_call1_v0 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_14 : Ref sig .tc := ⟨.hbm, 115, rfl⟩
abbrev main_v81 : Ref sig .tc := ⟨.hbm, 116, rfl⟩
abbrev main_v82 : Ref sig .tc := ⟨.hbm, 117, rfl⟩
abbrev main_cst_15 : Ref sig .tc := ⟨.hbm, 118, rfl⟩
abbrev main_v83 : Ref sig .tc := ⟨.hbm, 119, rfl⟩
abbrev main_v84 : Ref sig .tc := ⟨.hbm, 120, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S20000_S320000x1_S320000_n_0_0_1_wf : ScatterDims.WF S20000 S320000x1 S320000 [] [0] [0] 1
  dot_S20000x256_S256x256_S20000x256_1_0_0_1_n_n_wf : DotDims.WF S20000x256 S256x256 S20000x256 [1] [0] [0] [1] [] []
  gather_S20000x256_S100000x1_S100000x256_1_0_n_n_0_1_1256_wf : GatherDims.WF S20000x256 S100000x1 S100000x256 [1] [0] [] [0] [] 1 ![1, 256]
  dot_S100000x256_S256x256_S100000x256_1_0_0_1_n_n_wf : DotDims.WF S100000x256 S256x256 S100000x256 [1] [0] [0] [1] [] []
  dot_S100000x256_S256x1_S100000x1_1_0_0_1_n_n_wf : DotDims.WF S100000x256 S256x1 S100000x1 [1] [0] [0] [1] [] []

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S100000x1_S100000x256_1_0_n_n_0_1_1256 : GatherDims S20000x256 S100000x1 S100000x256 where
  offsetDims := [1]
  collapsedSliceDims := [0]
  operandBatchingDims := []
  startIndicesBatchingDims := []
  startIndexMap := [0]
  indexVectorDim := 1
  sliceSizes := ![1, 256]
  wf := gather_S20000x256_S100000x1_S100000x256_1_0_n_n_0_1_1256_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.Boundaries.lean ====
/-
  The kernel program between its regions: what each host stretch leaves in the buffers a region reads.

  Before each of the two dense regions the host gathers the source rows of every edge, adds them up per destination node,
  and divides by the in-degree (at least one): the mean over in-neighbours, `agg`. Before the link region it gathers, for
  every query, the feature rows of the two end nodes: `endRows0`, `endRows1`. A negative index is first wrapped by the
  node count. These are carried as whole functions of the arrays they read; nothing here looks inside a gather or a
  scatter. No stretch and no region writes an argument array, so each is read back as launched at every boundary.
-/
import proofs.«163039_j23081154248744_1_alg».proof.Proof.Gen.KernelIdeal.Frame
import Idealize.ShloMosaic.Lib.StableHlo.Run
import Idealize.ShloMosaic.PureOps.Ideal.Laws

noncomputable section

open Idealize.ShloMosaic Idealize.ShloMosaic.TcCoe Idealize.SL.Sem Idealize.ShloMosaic.StableHlo

namespace Cert.KernelIdeal.Hosts

open Cert.KernelIdeal Cert.KernelIdeal.Gen

/-- The mean over in-neighbours: row `r` is the sum of `x`'s rows `col e` over the edges `e` with `row e = r`, divided by
    the number of such edges or by one if there is none. -/
def agg (row col : (⟨S320000, .i32⟩ : BufTy).Contents (Elt Ideal)) (x : (⟨S20000x256, .f32⟩ : BufTy).Contents (Elt Ideal)) :
    (⟨S20000x256, .f32⟩ : BufTy).Contents (Elt Ideal) :=
  Host.divf
    (Host.scatterAdd scatter_S20000x256_S320000x1_S320000x256_1_0_0_1
      (broadcastInDim S20000x256 ![] bcast_S_S20000x256 (constant (F := Ideal) S_ .f32 0x00000000#32))
      (broadcastInDim S320000x1 ![0] bcast_S320000_S320000x1_0 row)
      (Host.gather gather_S20000x256_S320000x1_S320000x256_1_0_n_n_0_1_1256 x
        (broadcastInDim S320000x1 ![0] bcast_S320000_S320000x1_0
          (select (cmpi .slt col (broadcastInDim S320000 ![] bcast_S_S320000 (constantI S_ 32 0#32)))
            (addi col (broadcastInDim S320000 ![] bcast_S_S320000 (constantI S_ 32 20000#32))) col))))
    (broadcastInDim S20000x256 ![0, 1] bcast_S20000x1_S20000x256_0_1
      (broadcastInDim S20000x1 ![0] bcast_S20000_S20000x1_0
        (maximumf
          (Host.scatterAdd scatter_S20000_S320000x1_S320000_n_0_0_1
            (broadcastInDim S20000 ![] bcast_S_S20000 (constant (F := Ideal) S_ .f32 0x00000000#32))
            (broadcastInDim S320000x1 ![0] bcast_S320000_S320000x1_0 row)
            (broadcastInDim S320000 ![] bcast_S_S320000 (constant (F := Ideal) S_ .f32 0x3F800000#32)))
          (broadcastInDim S20000 ![] bcast_S_S20000 (constant (F := Ideal) S_ .f32 0x3F800000#32)))))

/-- The node index of every query's first end node, a negative one wrapped by the node count. -/
def ends0 (e : (⟨S2x100000, .i32⟩ : BufTy).Contents (Elt Ideal)) : (⟨S100000, .i32⟩ : BufTy).Contents (Elt Ideal) :=
  shapeCast S100000 (extractStridedSlice S1x100000 ![0, 0] e slices_S2x100000_S1x100000_0_0) shapeCasts_S1x100000_S100000

/-- The node index of every query's second end node. -/
def ends1 (e : (⟨S2x100000, .i32⟩ : BufTy).Contents (Elt Ideal)) : (⟨S100000, .i32⟩ : BufTy).Contents (Elt Ideal) :=
  shapeCast S100000 (extractStridedSlice S1x100000 ![1, 0] e slices_S2x100000_S1x100000_1_0) shapeCasts_S1x100000_S100000

/-- The rows of `x` at the given node indices, a negative index first wrapped by the node count. -/
def rowsAt (r : (⟨S100000, .i32⟩ : BufTy).Contents (Elt Ideal)) (x : (⟨S20000x256, .f32⟩ : BufTy).Contents (Elt Ideal)) :
    (⟨S100000x256, .f32⟩ : BufTy).Contents (Elt Ideal) :=
  Host.gather gather_S20000x256_S100000x1_S100000x256_1_0_n_n_0_1_1256 x
    (broadcastInDim S100000x1 ![0] bcast_S100000_S100000x1_0
      (select (cmpi .slt r (broadcastInDim S100000 ![] bcast_S_S100000 (constantI S_ 32 0#32)))
        (addi r (broadcastInDim S100000 ![] bcast_S_S100000 (constantI S_ 32 20000#32))) r))

variable (m : (ℓ : Loc nD τ sig) → Buf (Elt Ideal) ℓ) (ρ : Dev nD → PrngReg)

local macro "thru0" : tactic => `(tactic| (dsimp only [V1, W1, hostOps0]; after_results_simp))
local macro "thru1" : tactic => `(tactic| (dsimp only [V3, W3, hostOps1]; after_results_simp))
local macro "thru2" : tactic => `(tactic| (dsimp only [V5, W5, hostOps2]; after_results_simp))

/-! ## Up to the first region -/

set_option maxHeartbeats 8000000 in
/-- The first region's neighbourhood means are those of the embeddings. -/
theorem V1_agg (c : Dev nD) :
    V1 m ρ c main_v18 = agg (m ((c : Thread nD τ).loc main_arg0)) (m ((c : Thread nD τ).loc main_arg1)) (m ((c : Thread nD τ).loc main_arg3)) := by
  thru0 <;> rfl

theorem V1_arg3 (c : Dev nD) : V1 m ρ c main_arg3 = m ((c : Thread nD τ).loc main_arg3) := by thru0 <;> rfl
theorem V1_arg4 (c : Dev nD) : V1 m ρ c main_arg4 = m ((c : Thread nD τ).loc main_arg4) := by thru0 <;> rfl
theorem V1_arg5 (c : Dev nD) : V1 m ρ c main_arg5 = m ((c : Thread nD τ).loc main_arg5) := by thru0 <;> rfl
theorem V1_arg6 (c : Dev nD) : V1 m ρ c main_arg6 = m ((c : Thread nD τ).loc main_arg6) := by thru0 <;> rfl

/-! ## Between the first and the second region -/

theorem W2_arg0 (c : Dev nD) : W2 m ρ c (Proc.devRef .tc main_arg0) = m ((c : Thread nD τ).loc main_arg0) :=
  (W2_of_ne m ρ c main_arg0 (by decide)).trans (by thru0 <;> rfl)
theorem W2_arg1 (c : Dev nD) : W2 m ρ c (Proc.devRef .tc main_arg1) = m ((c : Thread nD τ).loc main_arg1) :=
  (W2_of_ne m ρ c main_arg1 (by decide)).trans (by thru0 <;> rfl)
theorem W2_arg2 (c : Dev nD) : W2 m ρ c (Proc.devRef .tc main_arg2) = m ((c : Thread nD τ).loc main_arg2) :=
  (W2_of_ne m ρ c main_arg2 (by decide)).trans (by thru0 <;> rfl)
theorem W2_arg7 (c : Dev nD) : W2 m ρ c (Proc.devRef .tc main_arg7) = m ((c : Thread nD τ).loc main_arg7) :=
  (W2_of_ne m ρ c main_arg7 (by decide)).trans (by thru0 <;> rfl)
theorem W2_arg8 (c : Dev nD) : W2 m ρ c (Proc.devRef .tc main_arg8) = m ((c : Thread nD τ).loc main_arg8) :=
  (W2_of_ne m ρ c main_arg8 (by decide)).trans (by thru0 <;> rfl)
theorem W2_arg9 (c : Dev nD) : W2 m ρ c (Proc.devRef .tc main_arg9) = m ((c : Thread nD τ).loc main_arg9) :=
  (W2_of_ne m ρ c main_arg9 (by decide)).trans (by thru0 <;> rfl)
theorem W2_arg10 (c : Dev nD) : W2 m ρ c (Proc.devRef .tc main_arg10) = m ((c : Thread nD τ).loc main_arg10) :=
  (W2_of_ne m ρ c main_arg10 (by decide)).trans (by thru0 <;> rfl)
theorem W2_arg11 (c : Dev nD) : W2 m ρ c (Proc.devRef .tc main_arg11) = m ((c : Thread nD τ).loc main_arg11) :=
  (W2_of_ne m ρ c main_arg11 (by decide)).trans (by thru0 <;> rfl)
theorem W2_arg12 (c : Dev nD) : W2 m ρ c (Proc.devRef .tc main_arg12) = m ((c : Thread nD τ).loc main_arg12) :=
  (W2_of_ne m ρ c main_arg12 (by decide)).trans (by thru0 <;> rfl)
theorem W2_arg13 (c : Dev nD) : W2 m ρ c (Proc.devRef .tc main_arg13) = m ((c : Thread nD τ).loc main_arg13) :=
  (W2_of_ne m ρ c main_arg13 (by decide)).trans (by thru0 <;> rfl)

/-- The first region's result array, at its exit. -/
theorem W2_out (c : Dev nD) : W2 m ρ c (Proc.devRef .tc main_v19) = (dat0 (V1 m ρ) c).arrAt 5 cfg0.N := W2_arr m ρ c 5

set_option maxHeartbeats 8000000 in
/-- The second region's neighbourhood means are those of the first region's result. -/
theorem V3_agg (c : Dev nD) :
    V3 m ρ c main_v38 = agg (m ((c : Thread nD τ).loc main_arg0)) (m ((c : Thread nD τ).loc main_arg1)) (W2 m ρ c (Proc.devRef .tc main_v19)) := by
  rw [← W2_arg0 m ρ c, ← W2_arg1 m ρ c]
  thru1 <;> rfl

theorem V3_x (c : Dev nD) : V3 m ρ c main_v19 = W2 m ρ c (Proc.devRef .tc main_v19) := by thru1 <;> rfl
theorem V3_arg7 (c : Dev nD) : V3 m ρ c main_arg7 = m ((c : Thread nD τ).loc main_arg7) := by
  rw [← W2_arg7 m ρ c]; thru1 <;> rfl
theorem V3_arg8 (c : Dev nD) : V3 m ρ c main_arg8 = m ((c : Thread nD τ).loc main_arg8) := by
  rw [← W2_arg8 m ρ c]; thru1 <;> rfl
theorem V3_arg9 (c : Dev nD) : V3 m ρ c main_arg9 = m ((c : Thread nD τ).loc main_arg9) := by
  rw [← W2_arg9 m ρ c]; thru1 <;> rfl

/-! ## Between the second and the third region -/

theorem W4_arg2 (c : Dev nD) : W4 m ρ c (Proc.devRef .tc main_arg2) = m ((c : Thread nD τ).loc main_arg2) := by
  rw [W4_of_ne m ρ c main_arg2 (by decide), ← W2_arg2 m ρ c]; thru1 <;> rfl
theorem W4_arg10 (c : Dev nD) : W4 m ρ c (Proc.devRef .tc main_arg10) = m ((c : Thread nD τ).loc main_arg10) := by
  rw [W4_of_ne m ρ c main_arg10 (by decide), ← W2_arg10 m ρ c]; thru1 <;> rfl
theorem W4_arg11 (c : Dev nD) : W4 m ρ c (Proc.devRef .tc main_arg11) = m ((c : Thread nD τ).loc main_arg11) := by
  rw [W4_of_ne m ρ c main_arg11 (by decide), ← W2_arg11 m ρ c]; thru1 <;> rfl
theorem W4_arg12 (c : Dev nD) : W4 m ρ c (Proc.devRef .tc main_arg12) = m ((c : Thread nD τ).loc main_arg12) := by
  rw [W4_of_ne m ρ c main_arg12 (by decide), ← W2_arg12 m ρ c]; thru1 <;> rfl
theorem W4_arg13 (c : Dev nD) : W4 m ρ c (Proc.devRef .tc main_arg13) = m ((c : Thread nD τ).loc main_arg13) := by
  rw [W4_of_ne m ρ c main_arg13 (by decide), ← W2_arg13 m ρ c]; thru1 <;> rfl

/-- The second region's result array, at its exit. -/
theorem W4_out (c : Dev nD) : W4 m ρ c (Proc.devRef .tc main_v39) = (dat1 (V3 m ρ) c).arrAt 5 cfg1.N := W4_arr m ρ c 5

set_option maxHeartbeats 8000000 in
/-- The link region's first operand: the second region's result at every query's first end node. -/
theorem V5_hi (c : Dev nD) :
    V5 m ρ c main_v48 = rowsAt (ends0 (m ((c : Thread nD τ).loc main_arg2))) (W4 m ρ c (Proc.devRef .tc main_v39)) := by
  rw [← W4_arg2 m ρ c]
  thru2 <;> rfl

set_option maxHeartbeats 8000000 in
/-- The link region's second operand: the same at every query's second end node. -/
theorem V5_hj (c : Dev nD) :
    V5 m ρ c main_v57 = rowsAt (ends1 (m ((c : Thread nD τ).loc main_arg2))) (W4 m ρ c (Proc.devRef .tc main_v39)) := by
  rw [← W4_arg2 m ρ c]
  thru2 <;> rfl

theorem V5_arg10 (c : Dev nD) : V5 m ρ c main_arg10 = m ((c : Thread nD τ).loc main_arg10) := by
  rw [← W4_arg10 m ρ c]; thru2 <;> rfl
theorem V5_arg11 (c : Dev nD) : V5 m ρ c main_arg11 = m ((c : Thread nD τ).loc main_arg11) := by
  rw [← W4_arg11 m ρ c]; thru2 <;> rfl
theorem V5_arg12 (c : Dev nD) : V5 m ρ c main_arg12 = m ((c : Thread nD τ).loc main_arg12) := by
  rw [← W4_arg12 m ρ c]; thru2 <;> rfl
theorem V5_arg13 (c : Dev nD) : V5 m ρ c main_arg13 = m ((c : Thread nD τ).loc main_arg13) := by
  rw [← W4_arg13 m ρ c]; thru2 <;> rfl

/-- The third region's result array, at its exit. -/
theorem W6_out (c : Dev nD) : W6 m ρ c (Proc.devRef .tc main_v58) = (dat2 (V5 m ρ) c).arrAt 6 cfg2.N := W6_arr m ρ c 6

end Cert.KernelIdeal.Hosts

end
-- ==== Proof.Spec.lean ====
/-
  The mathematics both programs compute, element by element, over the extended reals.

  A node array has 20000 rows of 256 features. One SAGE layer takes the neighbourhood means `A` and the node features `X`
  and gives, at node `p` and feature `q`,
      ∑ₖ A(p, k) · Wl(k, q)  +  b(q)  +  ∑ₖ X(p, k) · Wr(k, q)
  (`sageAt`); the first layer clamps that at zero from below. The link head takes, for a query `p`, the two end nodes'
  feature rows `hi(p, ·)`, `hj(p, ·)` and gives
      σ( ∑ₖ max(∑ₗ (hi(p, l) · hj(p, l)) · W1(l, k) + b1(k), 0) · W2(k, 0) + b2(0) ),   σ(z) = 1 / (1 + e^(−z))
  (`headAt`). Sums over the contracted axis are plain finite sums: neither their order nor their tiling into row blocks
  changes them, and no law used here needs the entries to be finite.
-/
import Idealize.ShloMosaic.PureOps.Ideal.Laws
import Idealize.ShloMosaic.Lib.ValueIdx

noncomputable section

namespace Cert.Spec

open Idealize.ShloMosaic Idealize.ShloMosaic.ValueIdx

/-- The dense part of one SAGE layer at node `p`, feature `q`. -/
def sageAt {N : Nat} (A X : (⟨2, ![N, 256]⟩ : Shape).Idx → EReal) (Wl : (⟨2, ![256, 256]⟩ : Shape).Idx → EReal)
    (b : (⟨1, ![256]⟩ : Shape).Idx → EReal) (Wr : (⟨2, ![256, 256]⟩ : Shape).Idx → EReal) (p : Fin N) (q : Fin 256) : EReal :=
  (∑ k : Fin 256, A (ix2 p k) * Wl (ix2 k q)) + b (ix1 q) + ∑ k : Fin 256, X (ix2 p k) * Wr (ix2 k q)

/-- The second layer: the dense part as an array. -/
def sage {N : Nat} (A X : (⟨2, ![N, 256]⟩ : Shape).Idx → EReal) (Wl : (⟨2, ![256, 256]⟩ : Shape).Idx → EReal)
    (b : (⟨1, ![256]⟩ : Shape).Idx → EReal) (Wr : (⟨2, ![256, 256]⟩ : Shape).Idx → EReal) : (⟨2, ![N, 256]⟩ : Shape).Idx → EReal :=
  fun j => sageAt A X Wl b Wr (j 0) (j 1)

/-- The first layer: the dense part clamped at zero from below. -/
def sageRelu {N : Nat} (A X : (⟨2, ![N, 256]⟩ : Shape).Idx → EReal) (Wl : (⟨2, ![256, 256]⟩ : Shape).Idx → EReal)
    (b : (⟨1, ![256]⟩ : Shape).Idx → EReal) (Wr : (⟨2, ![256, 256]⟩ : Shape).Idx → EReal) : (⟨2, ![N, 256]⟩ : Shape).Idx → EReal :=
  fun j => max (sageAt A X Wl b Wr (j 0) (j 1)) 0

theorem sage_apply {N : Nat} (A X : (⟨2, ![N, 256]⟩ : Shape).Idx → EReal) (Wl : (⟨2, ![256, 256]⟩ : Shape).Idx → EReal)
    (b : (⟨1, ![256]⟩ : Shape).Idx → EReal) (Wr : (⟨2, ![256, 256]⟩ : Shape).Idx → EReal) (p : Fin N) (q : Fin 256) :
    sage A X Wl b Wr (ix2 p q) = sageAt A X Wl b Wr p q := rfl

theorem sageRelu_apply {N : Nat} (A X : (⟨2, ![N, 256]⟩ : Shape).Idx → EReal) (Wl : (⟨2, ![256, 256]⟩ : Shape).Idx → EReal)
    (b : (⟨1, ![256]⟩ : Shape).Idx → EReal) (Wr : (⟨2, ![256, 256]⟩ : Shape).Idx → EReal) (p : Fin N) (q : Fin 256) :
    sageRelu A X Wl b Wr (ix2 p q) = max (sageAt A X Wl b Wr p q) 0 := rfl

/-- The hidden layer of the link head at query `p`, hidden unit `k`. -/
def hiddenAt {Q : Nat} (hi hj : (⟨2, ![Q, 256]⟩ : Shape).Idx → EReal) (W1 : (⟨2, ![256, 256]⟩ : Shape).Idx → EReal)
    (b1 : (⟨1, ![256]⟩ : Shape).Idx → EReal) (p : Fin Q) (k : Fin 256) : EReal :=
  max ((∑ l : Fin 256, (hi (ix2 p l) * hj (ix2 p l)) * W1 (ix2 l k)) + b1 (ix1 k)) 0

/-- The link head at query `p` (the one output column `u`). -/
def headAt {Q : Nat} (hi hj : (⟨2, ![Q, 256]⟩ : Shape).Idx → EReal) (W1 : (⟨2, ![256, 256]⟩ : Shape).Idx → EReal)
    (b1 : (⟨1, ![256]⟩ : Shape).Idx → EReal) (W2 : (⟨2, ![256, 1]⟩ : Shape).Idx → EReal) (b2 : (⟨1, ![1]⟩ : Shape).Idx → EReal)
    (p : Fin Q) (u : Fin 1) : EReal :=
  Ideal.logistic ((∑ k : Fin 256, hiddenAt hi hj W1 b1 p k * W2 (ix2 k u)) + b2 (ix1 0))

/-- The link head as an array. -/
def head {Q : Nat} (hi hj : (⟨2, ![Q, 256]⟩ : Shape).Idx → EReal) (W1 : (⟨2, ![256, 256]⟩ : Shape).Idx → EReal)
    (b1 : (⟨1, ![256]⟩ : Shape).Idx → EReal) (W2 : (⟨2, ![256, 1]⟩ : Shape).Idx → EReal) (b2 : (⟨1, ![1]⟩ : Shape).Idx → EReal) :
    (⟨2, ![Q, 1]⟩ : Shape).Idx → EReal :=
  fun j => headAt hi hj W1 b1 W2 b2 (j 0) (j 1)

theorem head_apply {Q : Nat} (hi hj : (⟨2, ![Q, 256]⟩ : Shape).Idx → EReal) (W1 : (⟨2, ![256, 256]⟩ : Shape).Idx → EReal)
    (b1 : (⟨1, ![256]⟩ : Shape).Idx → EReal) (W2 : (⟨2, ![256, 1]⟩ : Shape).Idx → EReal) (b2 : (⟨1, ![1]⟩ : Shape).Idx → EReal)
    (p : Fin Q) (u : Fin 1) : head hi hj W1 b1 W2 b2 (ix2 p u) = headAt hi hj W1 b1 W2 b2 p u := rfl

end Cert.Spec

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.Layer1.lean ====
import proofs.«163039_j23081154248744_1_alg».proof.Proof.Gen.KernelIdeal.Frame
import proofs.«163039_j23081154248744_1_alg».proof.Proof.Spec
import proofs.«163039_j23081154248744_1_alg».proof.Proof.LibRowwise
import Idealize.ShloMosaic.Lib.Pipeline.Value
import Idealize.ShloMosaic.Lib.ValueLayout
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen

variable (V : (c : Dev nD) → (b : Ref sig .tc) → Buf (Elt Ideal) ((c : Thread nD τ).loc b))

/-! ## The body's arithmetic at an element

  The body computes, on a tile of 2000 node rows, `max(a · Wl + b + x · Wr, 0)`: two products into zero accumulators, the
  bias row broadcast down the tile, and the clamp. At row `p`, column `q` that is the specification's `sageAt` clamped. -/

theorem hz : (![0, 0] : Fin 2 → Nat) = fun _ => 0 := funext fun a => by fin_cases a <;> rfl
theorem hz1 : (![0] : Fin 1 → Nat) = fun _ => 0 := funext fun a => by fin_cases a; rfl

/-- The tile's dimension numbers are the plain matrix product's. -/
theorem dot_plain : dot_S2000x256_S256x256_S2000x256_1_0_0_1_n_n = DotDims.plain 2000 256 256 :=
  Cert.Lib.Rowwise.eq_plain _ rfl rfl rfl rfl rfl rfl

/-- A tile's product into the zero accumulator at `(p, q)`: the sum over the 256 contracted features. -/
theorem mm_apply (a : FVec Ideal S2000x256 .f32) (w : FVec Ideal S256x256 .f32) (p : Fin 2000) (q : Fin 256) :
    matmul dot_S2000x256_S256x256_S2000x256_1_0_0_1_n_n none a w (constant S2000x256 .f32 0x00000000#32) (ix2 p q)
      = ∑ k : Fin 256, a (ix2 p k) * w (ix2 k q) := by
  rw [dot_plain]
  exact Cert.Lib.Rowwise.plain_matmul_zero_apply none a w p q

/-- The bias, cast to one row and broadcast down the tile, reads the bias at the column. -/
theorem bias_apply (b : FVec Ideal S256 .f32) (p : Fin 2000) (q : Fin 256) :
    broadcastTo S2000x256 (shapeCast S1x256 b shapeCasts_S256_S1x256) broadcasts_S1x256_S2000x256 (ix2 p q) = b (ix1 q) := by
  rw [broadcastTo_1b_ab_apply, shapeCast_a_1a_apply]

/-- The stored value at `(p, q)` of the tile. -/
theorem pay_apply (a : Vec Ideal S2000x256 .f32) (wl : Vec Ideal S256x256 .f32) (b : Vec Ideal S256 .f32)
    (x : Vec Ideal S2000x256 .f32) (wr : Vec Ideal S256x256 .f32) (p : Fin 2000) (q : Fin 256) :
    k0_pay1 a wl b x wr (ix2 p q) = max (Cert.Spec.sageAt a x wl b wr p q) 0 := by
  unfold k0_pay1
  simp only [shapeCast_self, maximumf_apply, addf_apply, broadcast_apply]
  rw [mm_apply, mm_apply, bias_apply]
  show max _ (Ideal.ofBits .f32 0x00000000#32) = _
  rw [Ideal.ofBits_zero_f32]
  rfl

/-! ## The windows' blocks as rows of their arrays

  Point `t` of the ten reads rows `2000 t … 2000 t + 1999` of the neighbourhood means and of the node features, and the
  two weight matrices and the bias whole; it writes the same rows of the result. -/

/-- The printed index maps over the grid. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The neighbourhood means' block at point `t`: row `p` of the tile is row `2000 t + p` of the array. -/
theorem rows0 (c : Dev nD) (t : Fin cfg0.N) (p : Fin 2000) (k : Fin 256) (r : Fin 20000) (hr : r.val = t.val * 2000 + p.val) :
    (iblk0 V c 0 t : Vec Ideal S2000x256 .f32) (ix2 p k) = (V c main_v18 : S20000x256.Idx → EReal) (ix2 r k) := by
  obtain ⟨e0, e1, -⟩ := idx_facts t
  unfold iblk0
  rw [View.read_apply]
  show V c main_v18 _ = V c main_v18 _
  refine congrArg (V c main_v18) (funext fun a => Fin.ext ?_)
  match a with
  | ⟨0, _⟩ => show win0_0.index t (0 : Fin 2) * 2000 + 1 * p.val = r.val; rw [e0, hr]; omega
  | ⟨1, _⟩ => show win0_0.index t (1 : Fin 2) * 256 + 1 * k.val = k.val; rw [e1]; omega

/-- The node features' block at point `t`, likewise. -/
theorem rows1 (c : Dev nD) (t : Fin cfg0.N) (p : Fin 2000) (k : Fin 256) (r : Fin 20000) (hr : r.val = t.val * 2000 + p.val) :
    (iblk0 V c 1 t : Vec Ideal S2000x256 .f32) (ix2 p k) = (V c main_arg3 : S20000x256.Idx → EReal) (ix2 r k) := by
  obtain ⟨-, -, e0, e1, -⟩ := idx_facts t
  unfold iblk0
  rw [View.read_apply]
  show V c main_arg3 _ = V c main_arg3 _
  refine congrArg (V c main_arg3) (funext fun a => Fin.ext ?_)
  match a with
  | ⟨0, _⟩ => show win0_1.index t (0 : Fin 2) * 2000 + 1 * p.val = r.val; rw [e0, hr]; omega
  | ⟨1, _⟩ => show win0_1.index t (1 : Fin 2) * 256 + 1 * k.val = k.val; rw [e1]; omega

/-- The left weights' block is the whole matrix. -/
theorem whole2 (c : Dev nD) (t : Fin cfg0.N) : (iblk0 V c 2 t : Vec Ideal S256x256 .f32) = V c main_arg4 := by
  obtain ⟨-, -, -, -, e0, e1, -⟩ := idx_facts t
  funext y
  unfold iblk0
  rw [View.read_apply]
  show V c main_arg4 _ = V c main_arg4 y
  refine congrArg (V c main_arg4) (funext fun a => Fin.ext ?_)
  match a with
  | ⟨0, _⟩ => show win0_2.index t (0 : Fin 2) * 256 + 1 * (y 0).val = (y 0).val; rw [e0]; omega
  | ⟨1, _⟩ => show win0_2.index t (1 : Fin 2) * 256 + 1 * (y 1).val = (y 1).val; rw [e1]; omega

/-- The bias block is the whole bias. -/
theorem whole3 (c : Dev nD) (t : Fin cfg0.N) : (iblk0 V c 3 t : Vec Ideal S256 .f32) = V c main_arg5 := by
  obtain ⟨-, -, -, -, -, -, e0, -⟩ := idx_facts t
  funext y
  unfold iblk0
  rw [View.read_apply]
  show V c main_arg5 _ = V c main_arg5 y
  refine congrArg (V c main_arg5) (funext fun a => Fin.ext ?_)
  match a with
  | ⟨0, _⟩ => show win0_3.index t (0 : Fin 1) * 256 + 1 * (y 0).val = (y 0).val; rw [e0]; omega

/-- The right weights' block is the whole matrix. -/
theorem whole4 (c : Dev nD) (t : Fin cfg0.N) : (iblk0 V c 4 t : Vec Ideal S256x256 .f32) = V c main_arg6 := by
  obtain ⟨-, -, -, -, -, -, -, e0, e1, -⟩ := idx_facts t
  funext y
  unfold iblk0
  rw [View.read_apply]
  show V c main_arg6 _ = V c main_arg6 y
  refine congrArg (V c main_arg6) (funext fun a => Fin.ext ?_)
  match a with
  | ⟨0, _⟩ => show win0_4.index t (0 : Fin 2) * 256 + 1 * (y 0).val = (y 0).val; rw [e0]; omega
  | ⟨1, _⟩ => show win0_4.index t (1 : Fin 2) * 256 + 1 * (y 1).val = (y 1).val; rw [e1]; omega

/-! ## From the blocks to the array -/

/-- The layer's output as one array function of the region's entry contents. -/
abbrev G (c : Dev nD) : S20000x256.Idx → EReal :=
  Cert.Spec.sageRelu (V c main_v18) (V c main_arg3) (V c main_arg4) (V c main_arg5) (V c main_arg6)

/-- What point `t` writes back is block `t` of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x256) hz, View.ld_unit_zero (S := S256x256) hz, View.ld_unit_zero (S := S256) hz1]
  rw [whole2, whole3, whole4]
  obtain ⟨-, -, -, -, -, -, -, -, -, e0, e1⟩ := idx_facts t
  funext j
  rw [View.read_apply]
  obtain ⟨p, q, rfl⟩ : ∃ (p : Fin 2000) (q : Fin 256), j = ix2 p q := ⟨j 0, j 1, eq_ix2 j⟩
  have hp : t.val * 2000 + p.val < 20000 := by
    have := t.isLt; have h10 : cfg0.N = 10 := N_0; have := p.isLt; omega
  have hemb : ((cfg0.win 5).blk t).view.emb (ix2 p q) = ix2 (⟨t.val * 2000 + p.val, hp⟩ : Fin 20000) q :=
    funext fun a => Fin.ext (by
      match a with
      | ⟨0, _⟩ => show win0_5.index t (0 : Fin 2) * 2000 + 1 * p.val = t.val * 2000 + p.val; rw [e0]; omega
      | ⟨1, _⟩ => show win0_5.index t (1 : Fin 2) * 256 + 1 * q.val = q.val; rw [e1]; omega)
  rw [hemb]
  refine (pay_apply _ _ _ _ _ p q).trans ?_
  show max _ 0 = max _ 0
  refine congrArg (max · 0) ?_
  unfold Cert.Spec.sageAt
  refine congrArg₂ (· + ·) (congrArg (· + _) (Finset.sum_congr rfl fun k _ => ?_)) (Finset.sum_congr rfl fun k _ => ?_)
  · rw [rows0 V c t p k ⟨t.val * 2000 + p.val, hp⟩ rfl]
  · rw [rows1 V c t p k ⟨t.val * 2000 + p.val, hp⟩ rfl]

/-- An index of the array is in point `t`'s block iff each coordinate is in the block's range. -/
theorem mem_blk (t : Fin cfg0.N) (i : S20000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v19).slice (win0_5.rect t)).set ↔ _
  rw [View.set_slice_whole, Rect.mem_set_unit]
  exact Iff.rfl

/-- Every row of the array is in the block of the point that holds it: row `r` in block `r / 2000`. -/
theorem cover (i : S20000x256.Idx) : ∃ t : Fin cfg0.N, (cfg0.win 5).flush t = true ∧ i ∈ ((cfg0.win 5).blk t).view.set := by
  have hi0 : (i 0).val < 20000 := (i 0).isLt
  have hi1 : (i 1).val < 256 := (i 1).isLt
  have h10 : cfg0.N = 10 := N_0
  let t : Fin cfg0.N := ⟨(i 0).val / 2000, by rw [h10]; omega⟩
  obtain ⟨-, -, -, -, -, -, -, -, -, e0, e1⟩ := idx_facts t
  refine ⟨t, flush0_5 t, ?_⟩
  rw [mem_blk]
  intro a
  match a with
  | ⟨0, _⟩ =>
    show win0_5.index t (0 : Fin 2) * 2000 ≤ (i 0).val ∧ (i 0).val < win0_5.index t (0 : Fin 2) * 2000 + 2000
    rw [e0]; show (i 0).val / 2000 * 2000 ≤ (i 0).val ∧ (i 0).val < (i 0).val / 2000 * 2000 + 2000; omega
  | ⟨1, _⟩ =>
    show win0_5.index t (1 : Fin 2) * 256 ≤ (i 1).val ∧ (i 1).val < win0_5.index t (1 : Fin 2) * 256 + 256
    rw [e1]; omega

/-- The region's result array, whatever contents `V` the region is entered with: the clamped dense part of the layer. -/
theorem final (c : Dev nD) :
    (dat0 V c).arrAt 5 cfg0.N
      = Cert.Spec.sageRelu (V c main_v18) (V c main_arg3) (V c main_arg4) (V c main_arg5) (V c main_arg6) :=
  (dat0 V c).arrAt_eq_of_cover 5 (G V c) (fun t _ => flushed_eq V c t) cover

end Cert.KernelIdeal.Layer1

end
-- ==== Proof.Layer2.lean ====
import proofs.«163039_j23081154248744_1_alg».proof.Proof.Gen.KernelIdeal.Frame
import proofs.«163039_j23081154248744_1_alg».proof.Proof.Spec
import proofs.«163039_j23081154248744_1_alg».proof.Proof.LibRowwise
import Idealize.ShloMosaic.Lib.Pipeline.Value
import Idealize.ShloMosaic.Lib.ValueLayout
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen

variable (V : (c : Dev nD) → (b : Ref sig .tc) → Buf (Elt Ideal) ((c : Thread nD τ).loc b))

/-! ## The body's arithmetic at an element

  The body computes, on a tile of 2000 node rows, `a · Wl + b + x · Wr`: two products into zero accumulators and the bias
  row broadcast down the tile; the second layer has no clamp. At row `p`, column `q` that is the specification's `sageAt`. -/

theorem hz : (![0, 0] : Fin 2 → Nat) = fun _ => 0 := funext fun a => by fin_cases a <;> rfl
theorem hz1 : (![0] : Fin 1 → Nat) = fun _ => 0 := funext fun a => by fin_cases a; rfl

/-- The tile's dimension numbers are the plain matrix product's. -/
theorem dot_plain : dot_S2000x256_S256x256_S2000x256_1_0_0_1_n_n = DotDims.plain 2000 256 256 :=
  Cert.Lib.Rowwise.eq_plain _ rfl rfl rfl rfl rfl rfl

/-- A tile's product into the zero accumulator at `(p, q)`: the sum over the 256 contracted features. -/
theorem mm_apply (a : FVec Ideal S2000x256 .f32) (w : FVec Ideal S256x256 .f32) (p : Fin 2000) (q : Fin 256) :
    matmul dot_S2000x256_S256x256_S2000x256_1_0_0_1_n_n none a w (constant S2000x256 .f32 0x00000000#32) (ix2 p q)
      = ∑ k : Fin 256, a (ix2 p k) * w (ix2 k q) := by
  rw [dot_plain]
  exact Cert.Lib.Rowwise.plain_matmul_zero_apply none a w p q

/-- The bias, cast to one row and broadcast down the tile, reads the bias at the column. -/
theorem bias_apply (b : FVec Ideal S256 .f32) (p : Fin 2000) (q : Fin 256) :
    broadcastTo S2000x256 (shapeCast S1x256 b shapeCasts_S256_S1x256) broadcasts_S1x256_S2000x256 (ix2 p q) = b (ix1 q) := by
  rw [broadcastTo_1b_ab_apply, shapeCast_a_1a_apply]

/-- The stored value at `(p, q)` of the tile. -/
theorem pay_apply (a : Vec Ideal S2000x256 .f32) (wl : Vec Ideal S256x256 .f32) (b : Vec Ideal S256 .f32)
    (x : Vec Ideal S2000x256 .f32) (wr : Vec Ideal S256x256 .f32) (p : Fin 2000) (q : Fin 256) :
    k1_pay1 a wl b x wr (ix2 p q) = Cert.Spec.sageAt a x wl b wr p q := by
  unfold k1_pay1
  simp only [shapeCast_self, addf_apply]
  rw [mm_apply, mm_apply, bias_apply]
  rfl

/-! ## The windows' blocks as rows of their arrays

  Point `t` of the ten reads rows `2000 t … 2000 t + 1999` of the neighbourhood means and of the node features, and the
  two weight matrices and the bias whole; it writes the same rows of the result. -/

/-- The printed index maps over the grid. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The neighbourhood means' block at point `t`: row `p` of the tile is row `2000 t + p` of the array. -/
theorem rows0 (c : Dev nD) (t : Fin cfg1.N) (p : Fin 2000) (k : Fin 256) (r : Fin 20000) (hr : r.val = t.val * 2000 + p.val) :
    (iblk1 V c 0 t : Vec Ideal S2000x256 .f32) (ix2 p k) = (V c main_v38 : S20000x256.Idx → EReal) (ix2 r k) := by
  obtain ⟨e0, e1, -⟩ := idx_facts t
  unfold iblk1
  rw [View.read_apply]
  show V c main_v38 _ = V c main_v38 _
  refine congrArg (V c main_v38) (funext fun a => Fin.ext ?_)
  match a with
  | ⟨0, _⟩ => show win1_0.index t (0 : Fin 2) * 2000 + 1 * p.val = r.val; rw [e0, hr]; omega
  | ⟨1, _⟩ => show win1_0.index t (1 : Fin 2) * 256 + 1 * k.val = k.val; rw [e1]; omega

/-- The first layer's output, the node features here: its block at point `t`, likewise. -/
theorem rows1 (c : Dev nD) (t : Fin cfg1.N) (p : Fin 2000) (k : Fin 256) (r : Fin 20000) (hr : r.val = t.val * 2000 + p.val) :
    (iblk1 V c 1 t : Vec Ideal S2000x256 .f32) (ix2 p k) = (V c main_v19 : S20000x256.Idx → EReal) (ix2 r k) := by
  obtain ⟨-, -, e0, e1, -⟩ := idx_facts t
  unfold iblk1
  rw [View.read_apply]
  show V c main_v19 _ = V c main_v19 _
  refine congrArg (V c main_v19) (funext fun a => Fin.ext ?_)
  match a with
  | ⟨0, _⟩ => show win1_1.index t (0 : Fin 2) * 2000 + 1 * p.val = r.val; rw [e0, hr]; omega
  | ⟨1, _⟩ => show win1_1.index t (1 : Fin 2) * 256 + 1 * k.val = k.val; rw [e1]; omega

/-- The left weights' block is the whole matrix. -/
theorem whole2 (c : Dev nD) (t : Fin cfg1.N) : (iblk1 V c 2 t : Vec Ideal S256x256 .f32) = V c main_arg7 := by
  obtain ⟨-, -, -, -, e0, e1, -⟩ := idx_facts t
  funext y
  unfold iblk1
  rw [View.read_apply]
  show V c main_arg7 _ = V c main_arg7 y
  refine congrArg (V c main_arg7) (funext fun a => Fin.ext ?_)
  match a with
  | ⟨0, _⟩ => show win1_2.index t (0 : Fin 2) * 256 + 1 * (y 0).val = (y 0).val; rw [e0]; omega
  | ⟨1, _⟩ => show win1_2.index t (1 : Fin 2) * 256 + 1 * (y 1).val = (y 1).val; rw [e1]; omega

/-- The bias block is the whole bias. -/
theorem whole3 (c : Dev nD) (t : Fin cfg1.N) : (iblk1 V c 3 t : Vec Ideal S256 .f32) = V c main_arg8 := by
  obtain ⟨-, -, -, -, -, -, e0, -⟩ := idx_facts t
  funext y
  unfold iblk1
  rw [View.read_apply]
  show V c main_arg8 _ = V c main_arg8 y
  refine congrArg (V c main_arg8) (funext fun a => Fin.ext ?_)
  match a with
  | ⟨0, _⟩ => show win1_3.index t (0 : Fin 1) * 256 + 1 * (y 0).val = (y 0).val; rw [e0]; omega

/-- The right weights' block is the whole matrix. -/
theorem whole4 (c : Dev nD) (t : Fin cfg1.N) : (iblk1 V c 4 t : Vec Ideal S256x256 .f32) = V c main_arg9 := by
  obtain ⟨-, -, -, -, -, -, -, e0, e1, -⟩ := idx_facts t
  funext y
  unfold iblk1
  rw [View.read_apply]
  show V c main_arg9 _ = V c main_arg9 y
  refine congrArg (V c main_arg9) (funext fun a => Fin.ext ?_)
  match a with
  | ⟨0, _⟩ => show win1_4.index t (0 : Fin 2) * 256 + 1 * (y 0).val = (y 0).val; rw [e0]; omega
  | ⟨1, _⟩ => show win1_4.index t (1 : Fin 2) * 256 + 1 * (y 1).val = (y 1).val; rw [e1]; omega

/-! ## From the blocks to the array -/

/-- The second layer's output as one array function of the region's entry contents. -/
abbrev G (c : Dev nD) : S20000x256.Idx → EReal :=
  Cert.Spec.sage (V c main_v38) (V c main_v19) (V c main_arg7) (V c main_arg8) (V c main_arg9)

/-- What point `t` writes back is block `t` of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S256) hz1]
  rw [whole2, whole3, whole4]
  obtain ⟨-, -, -, -, -, -, -, -, -, e0, e1⟩ := idx_facts t
  funext j
  rw [View.read_apply]
  obtain ⟨p, q, rfl⟩ : ∃ (p : Fin 2000) (q : Fin 256), j = ix2 p q := ⟨j 0, j 1, eq_ix2 j⟩
  have hp : t.val * 2000 + p.val < 20000 := by
    have := t.isLt; have h10 : cfg1.N = 10 := N_1; have := p.isLt; omega
  have hemb : ((cfg1.win 5).blk t).view.emb (ix2 p q) = ix2 (⟨t.val * 2000 + p.val, hp⟩ : Fin 20000) q :=
    funext fun a => Fin.ext (by
      match a with
      | ⟨0, _⟩ => show win1_5.index t (0 : Fin 2) * 2000 + 1 * p.val = t.val * 2000 + p.val; rw [e0]; omega
      | ⟨1, _⟩ => show win1_5.index t (1 : Fin 2) * 256 + 1 * q.val = q.val; rw [e1]; omega)
  rw [hemb]
  refine (pay_apply _ _ _ _ _ p q).trans ?_
  show Cert.Spec.sageAt _ _ _ _ _ p q = Cert.Spec.sageAt _ _ _ _ _ _ _
  unfold Cert.Spec.sageAt
  refine congrArg₂ (· + ·) (congrArg (· + _) (Finset.sum_congr rfl fun k _ => ?_)) (Finset.sum_congr rfl fun k _ => ?_)
  · rw [rows0 V c t p k ⟨t.val * 2000 + p.val, hp⟩ rfl]
  · rw [rows1 V c t p k ⟨t.val * 2000 + p.val, hp⟩ rfl]

/-- An index of the array is in point `t`'s block iff each coordinate is in the block's range. -/
theorem mem_blk (t : Fin cfg1.N) (i : S20000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v39).slice (win1_5.rect t)).set ↔ _
  rw [View.set_slice_whole, Rect.mem_set_unit]
  exact Iff.rfl

/-- Every row of the array is in the block of the point that holds it: row `r` in block `r / 2000`. -/
theorem cover (i : S20000x256.Idx) : ∃ t : Fin cfg1.N, (cfg1.win 5).flush t = true ∧ i ∈ ((cfg1.win 5).blk t).view.set := by
  have hi0 : (i 0).val < 20000 := (i 0).isLt
  have hi1 : (i 1).val < 256 := (i 1).isLt
  have h10 : cfg1.N = 10 := N_1
  let t : Fin cfg1.N := ⟨(i 0).val / 2000, by rw [h10]; omega⟩
  obtain ⟨-, -, -, -, -, -, -, -, -, e0, e1⟩ := idx_facts t
  refine ⟨t, flush1_5 t, ?_⟩
  rw [mem_blk]
  intro a
  match a with
  | ⟨0, _⟩ =>
    show win1_5.index t (0 : Fin 2) * 2000 ≤ (i 0).val ∧ (i 0).val < win1_5.index t (0 : Fin 2) * 2000 + 2000
    rw [e0]; show (i 0).val / 2000 * 2000 ≤ (i 0).val ∧ (i 0).val < (i 0).val / 2000 * 2000 + 2000; omega
  | ⟨1, _⟩ =>
    show win1_5.index t (1 : Fin 2) * 256 ≤ (i 1).val ∧ (i 1).val < win1_5.index t (1 : Fin 2) * 256 + 256
    rw [e1]; omega

/-- The region's result array, whatever contents `V` the region is entered with: the dense part of the second layer. -/
theorem final (c : Dev nD) :
    (dat1 V c).arrAt 5 cfg1.N
      = Cert.Spec.sage (V c main_v38) (V c main_v19) (V c main_arg7) (V c main_arg8) (V c main_arg9) :=
  (dat1 V c).arrAt_eq_of_cover 5 (G V c) (fun t _ => flushed_eq V c t) cover

end Cert.KernelIdeal.Layer2

end
-- ==== Proof.Link.lean ====
import proofs.«163039_j23081154248744_1_alg».proof.Proof.Gen.KernelIdeal.Frame
import proofs.«163039_j23081154248744_1_alg».proof.Proof.Spec
import proofs.«163039_j23081154248744_1_alg».proof.Proof.LibRowwise
import Idealize.ShloMosaic.Lib.Pipeline.Value
import Idealize.ShloMosaic.Lib.ValueLayout
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Link

open Cert.KernelIdeal Cert.KernelIdeal.Gen

variable (V : (c : Dev nD) → (b : Ref sig .tc) → Buf (Elt Ideal) ((c : Thread nD τ).loc b))

/-! ## The body's arithmetic at an element

  On a tile of 5000 query rows the body multiplies the two end nodes' feature rows entry by entry, takes that product
  through the hidden layer `max(· W1 + b1, 0)` (a product into a zero accumulator, the bias row broadcast down the tile,
  the clamp), then through the output column `· W2 + b2` (a second product into a zero accumulator, the one bias entry
  broadcast down the tile) and the logistic function. At query row `p` and the one output column `u` that is the
  specification's `headAt`. -/

theorem hz : (![0, 0] : Fin 2 → Nat) = fun _ => 0 := funext fun a => by fin_cases a <;> rfl
theorem hz1 : (![0] : Fin 1 → Nat) = fun _ => 0 := funext fun a => by fin_cases a; rfl

/-- The hidden layer's dimension numbers are the plain matrix product's, `[5000, 256] × [256, 256]`. -/
theorem dotHidden_plain : dot_S5000x256_S256x256_S5000x256_1_0_0_1_n_n = DotDims.plain 5000 256 256 :=
  Cert.Lib.Rowwise.eq_plain _ rfl rfl rfl rfl rfl rfl

/-- The output column's dimension numbers are the plain matrix product's, `[5000, 256] × [256, 1]`. -/
theorem dotOut_plain : dot_S5000x256_S256x1_S5000x1_1_0_0_1_n_n = DotDims.plain 5000 256 1 :=
  Cert.Lib.Rowwise.eq_plain _ rfl rfl rfl rfl rfl rfl

/-- The hidden layer's product into the zero accumulator at `(p, k)`: the sum over the 256 features. -/
theorem mmHidden_apply (a : FVec Ideal S5000x256 .f32) (w : FVec Ideal S256x256 .f32) (p : Fin 5000) (k : Fin 256) :
    matmul dot_S5000x256_S256x256_S5000x256_1_0_0_1_n_n none a w (constant S5000x256 .f32 0x00000000#32) (ix2 p k)
      = ∑ l : Fin 256, a (ix2 p l) * w (ix2 l k) := by
  rw [dotHidden_plain]
  exact Cert.Lib.Rowwise.plain_matmul_zero_apply none a w p k

/-- The output column's product into the zero accumulator at `(p, u)`: the sum over the 256 hidden units. -/
theorem mmOut_apply (h : FVec Ideal S5000x256 .f32) (w : FVec Ideal S256x1 .f32) (p : Fin 5000) (u : Fin 1) :
    matmul dot_S5000x256_S256x1_S5000x1_1_0_0_1_n_n none h w (constant S5000x1 .f32 0x00000000#32) (ix2 p u)
      = ∑ k : Fin 256, h (ix2 p k) * w (ix2 k u) := by
  rw [dotOut_plain]
  exact Cert.Lib.Rowwise.plain_matmul_zero_apply none h w p u

/-- The hidden bias, cast to one row and broadcast down the tile, reads the bias at the hidden unit. -/
theorem biasHidden_apply (b : FVec Ideal S256 .f32) (p : Fin 5000) (k : Fin 256) :
    broadcastTo S5000x256 (shapeCast S1x256 b shapeCasts_S256_S1x256) broadcasts_S1x256_S5000x256 (ix2 p k) = b (ix1 k) := by
  rw [broadcastTo_1b_ab_apply, shapeCast_a_1a_apply]

/-- The output bias, its one entry cast to `[1, 1]` and broadcast down the tile, reads that one entry. -/
theorem biasOut_apply (b : FVec Ideal S1 .f32) (p : Fin 5000) (u : Fin 1) :
    broadcastTo S5000x1 (shapeCast S1x1 b shapeCasts_S1_S1x1) broadcasts_S1x1_S5000x1 (ix2 p u) = b (ix1 0) := by
  rw [broadcastTo_1b_ab_apply, shapeCast_a_1a_apply, Fin.eq_zero u]

/-- The logistic function on a vector is the extended reals' logistic at each element. -/
theorem logistic_apply {s : Shape} {φ : FTy} (v : FVec Ideal s φ) (i : s.Idx) : logistic v i = Ideal.logistic (v i) := rfl

/-- The hidden tile at `(p, k)`: the specification's hidden unit `k` of query `p`. -/
theorem hidden_apply (hi hj : FVec Ideal S5000x256 .f32) (w1 : FVec Ideal S256x256 .f32) (b1 : FVec Ideal S256 .f32)
    (p : Fin 5000) (k : Fin 256) :
    maximumf
        (addf (matmul dot_S5000x256_S256x256_S5000x256_1_0_0_1_n_n none (mulf hi hj) w1 (constant S5000x256 .f32 0x00000000#32))
          (broadcastTo S5000x256 (shapeCast S1x256 b1 shapeCasts_S256_S1x256) broadcasts_S1x256_S5000x256))
        (broadcast S5000x256 (Scalar.ofBits (F := Ideal) .f32 0x00000000#32)) (ix2 p k)
      = Cert.Spec.hiddenAt hi hj w1 b1 p k := by
  simp only [maximumf_apply, addf_apply, broadcast_apply]
  rw [mmHidden_apply, biasHidden_apply]
  show max _ (Ideal.ofBits .f32 0x00000000#32) = _
  rw [Ideal.ofBits_zero_f32]
  rfl

/-- The stored value at `(p, u)` of the tile. -/
theorem pay_apply (hi hj : Vec Ideal S5000x256 .f32) (w1 : Vec Ideal S256x256 .f32) (b1 : Vec Ideal S256 .f32)
    (w2 : Vec Ideal S256x1 .f32) (b2 : Vec Ideal S1 .f32) (p : Fin 5000) (u : Fin 1) :
    k2_pay1 hi hj w1 b1 w2 b2 (ix2 p u) = Cert.Spec.headAt hi hj w1 b1 w2 b2 p u := by
  unfold k2_pay1
  simp only [shapeCast_self, logistic_apply, addf_apply]
  rw [mmOut_apply, biasOut_apply]
  unfold Cert.Spec.headAt
  refine congrArg Ideal.logistic (congrArg (· + _) (Finset.sum_congr rfl fun k _ => ?_))
  rw [hidden_apply]

/-! ## The windows' blocks as rows of their arrays

  Point `t` of the twenty reads rows `5000 t … 5000 t + 4999` of the two gathered feature arrays, and the two weight
  matrices and the two biases whole; it writes the same rows of the result column. -/

/-- The printed index maps over the grid. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- The first end node's block at point `t`: row `p` of the tile is row `5000 t + p` of the array. -/
theorem rows0 (c : Dev nD) (t : Fin cfg2.N) (p : Fin 5000) (l : Fin 256) (r : Fin 100000) (hr : r.val = t.val * 5000 + p.val) :
    (iblk2 V c 0 t : Vec Ideal S5000x256 .f32) (ix2 p l) = (V c main_v48 : S100000x256.Idx → EReal) (ix2 r l) := by
  obtain ⟨e0, e1, -⟩ := idx_facts t
  unfold iblk2
  rw [View.read_apply]
  show V c main_v48 _ = V c main_v48 _
  refine congrArg (V c main_v48) (funext fun a => Fin.ext ?_)
  match a with
  | ⟨0, _⟩ => show win2_0.index t (0 : Fin 2) * 5000 + 1 * p.val = r.val; rw [e0, hr]; omega
  | ⟨1, _⟩ => show win2_0.index t (1 : Fin 2) * 256 + 1 * l.val = l.val; rw [e1]; omega

/-- The second end node's block at point `t`, likewise. -/
theorem rows1 (c : Dev nD) (t : Fin cfg2.N) (p : Fin 5000) (l : Fin 256) (r : Fin 100000) (hr : r.val = t.val * 5000 + p.val) :
    (iblk2 V c 1 t : Vec Ideal S5000x256 .f32) (ix2 p l) = (V c main_v57 : S100000x256.Idx → EReal) (ix2 r l) := by
  obtain ⟨-, -, e0, e1, -⟩ := idx_facts t
  unfold iblk2
  rw [View.read_apply]
  show V c main_v57 _ = V c main_v57 _
  refine congrArg (V c main_v57) (funext fun a => Fin.ext ?_)
  match a with
  | ⟨0, _⟩ => show win2_1.index t (0 : Fin 2) * 5000 + 1 * p.val = r.val; rw [e0, hr]; omega
  | ⟨1, _⟩ => show win2_1.index t (1 : Fin 2) * 256 + 1 * l.val = l.val; rw [e1]; omega

/-- The hidden weights' block is the whole matrix. -/
theorem whole2 (c : Dev nD) (t : Fin cfg2.N) : (iblk2 V c 2 t : Vec Ideal S256x256 .f32) = V c main_arg10 := by
  obtain ⟨-, -, -, -, e0, e1, -⟩ := idx_facts t
  funext y
  unfold iblk2
  rw [View.read_apply]
  show V c main_arg10 _ = V c main_arg10 y
  refine congrArg (V c main_arg10) (funext fun a => Fin.ext ?_)
  match a with
  | ⟨0, _⟩ => show win2_2.index t (0 : Fin 2) * 256 + 1 * (y 0).val = (y 0).val; rw [e0]; omega
  | ⟨1, _⟩ => show win2_2.index t (1 : Fin 2) * 256 + 1 * (y 1).val = (y 1).val; rw [e1]; omega

/-- The hidden bias block is the whole bias. -/
theorem whole3 (c : Dev nD) (t : Fin cfg2.N) : (iblk2 V c 3 t : Vec Ideal S256 .f32) = V c main_arg11 := by
  obtain ⟨-, -, -, -, -, -, e0, -⟩ := idx_facts t
  funext y
  unfold iblk2
  rw [View.read_apply]
  show V c main_arg11 _ = V c main_arg11 y
  refine congrArg (V c main_arg11) (funext fun a => Fin.ext ?_)
  match a with
  | ⟨0, _⟩ => show win2_3.index t (0 : Fin 1) * 256 + 1 * (y 0).val = (y 0).val; rw [e0]; omega

/-- The output weights' block is the whole column. -/
theorem whole4 (c : Dev nD) (t : Fin cfg2.N) : (iblk2 V c 4 t : Vec Ideal S256x1 .f32) = V c main_arg12 := by
  obtain ⟨-, -, -, -, -, -, -, e0, e1, -⟩ := idx_facts t
  funext y
  unfold iblk2
  rw [View.read_apply]
  show V c main_arg12 _ = V c main_arg12 y
  refine congrArg (V c main_arg12) (funext fun a => Fin.ext ?_)
  match a with
  | ⟨0, _⟩ => show win2_4.index t (0 : Fin 2) * 256 + 1 * (y 0).val = (y 0).val; rw [e0]; omega
  | ⟨1, _⟩ => show win2_4.index t (1 : Fin 2) * 1 + 1 * (y 1).val = (y 1).val; rw [e1]; omega

/-- The output bias block is the whole one-entry bias. -/
theorem whole5 (c : Dev nD) (t : Fin cfg2.N) : (iblk2 V c 5 t : Vec Ideal S1 .f32) = V c main_arg13 := by
  obtain ⟨-, -, -, -, -, -, -, -, -, e0, -⟩ := idx_facts t
  funext y
  unfold iblk2
  rw [View.read_apply]
  show V c main_arg13 _ = V c main_arg13 y
  refine congrArg (V c main_arg13) (funext fun a => Fin.ext ?_)
  match a with
  | ⟨0, _⟩ => show win2_5.index t (0 : Fin 1) * 1 + 1 * (y 0).val = (y 0).val; rw [e0]; omega

/-! ## From the blocks to the array -/

/-- The link head's output as one array function of the region's entry contents. -/
abbrev G (c : Dev nD) : S100000x1.Idx → EReal :=
  Cert.Spec.head (V c main_v48) (V c main_v57) (V c main_arg10) (V c main_arg11) (V c main_arg12) (V c main_arg13)

/-- What point `t` writes back is block `t` of `G`. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S5000x256) hz, View.ld_unit_zero (S := S256x256) hz, View.ld_unit_zero (S := S256) hz1,
    View.ld_unit_zero (S := S256x1) hz, View.ld_unit_zero (S := S1) hz1]
  rw [whole2, whole3, whole4, whole5]
  obtain ⟨-, -, -, -, -, -, -, -, -, -, e0, e1⟩ := idx_facts t
  funext j
  rw [View.read_apply]
  obtain ⟨p, u, rfl⟩ : ∃ (p : Fin 5000) (u : Fin 1), j = ix2 p u := ⟨j 0, j 1, eq_ix2 j⟩
  have hp : t.val * 5000 + p.val < 100000 := by
    have := t.isLt; have h20 : cfg2.N = 20 := N_2; have := p.isLt; omega
  have hemb : ((cfg2.win 6).blk t).view.emb (ix2 p u) = ix2 (⟨t.val * 5000 + p.val, hp⟩ : Fin 100000) u :=
    funext fun a => Fin.ext (by
      match a with
      | ⟨0, _⟩ => show win2_6.index t (0 : Fin 2) * 5000 + 1 * p.val = t.val * 5000 + p.val; rw [e0]; omega
      | ⟨1, _⟩ => show win2_6.index t (1 : Fin 2) * 1 + 1 * u.val = u.val; rw [e1]; omega)
  rw [hemb]
  refine (pay_apply _ _ _ _ _ _ p u).trans ?_
  show Cert.Spec.headAt _ _ _ _ _ _ p u = Cert.Spec.headAt _ _ _ _ _ _ _ u
  unfold Cert.Spec.headAt
  refine congrArg Ideal.logistic (congrArg (· + _) (Finset.sum_congr rfl fun k _ => congrArg (· * _) ?_))
  unfold Cert.Spec.hiddenAt
  refine congrArg (max · 0) (congrArg (· + _) (Finset.sum_congr rfl fun l _ => ?_))
  rw [rows0 V c t p l ⟨t.val * 5000 + p.val, hp⟩ rfl, rows1 V c t p l ⟨t.val * 5000 + p.val, hp⟩ rfl]

/-- An index of the array is in point `t`'s block iff each coordinate is in the block's range. -/
theorem mem_blk (t : Fin cfg2.N) (i : S100000x1.Idx) :
    i ∈ ((cfg2.win 6).blk t).view.set ↔ ∀ a : Fin 2, win2_6.index t a * S5000x1.size a ≤ (i a).val ∧ (i a).val < win2_6.index t a * S5000x1.size a + S5000x1.size a := by
  show i ∈ ((View.whole main_v58).slice (win2_6.rect t)).set ↔ _
  rw [View.set_slice_whole, Rect.mem_set_unit]
  exact Iff.rfl

/-- Every row of the array is in the block of the point that holds it: row `r` in block `r / 5000`. -/
theorem cover (i : S100000x1.Idx) : ∃ t : Fin cfg2.N, (cfg2.win 6).flush t = true ∧ i ∈ ((cfg2.win 6).blk t).view.set := by
  have hi0 : (i 0).val < 100000 := (i 0).isLt
  have hi1 : (i 1).val < 1 := (i 1).isLt
  have h20 : cfg2.N = 20 := N_2
  let t : Fin cfg2.N := ⟨(i 0).val / 5000, by rw [h20]; omega⟩
  obtain ⟨-, -, -, -, -, -, -, -, -, -, e0, e1⟩ := idx_facts t
  refine ⟨t, flush2_6 t, ?_⟩
  rw [mem_blk]
  intro a
  match a with
  | ⟨0, _⟩ =>
    show win2_6.index t (0 : Fin 2) * 5000 ≤ (i 0).val ∧ (i 0).val < win2_6.index t (0 : Fin 2) * 5000 + 5000
    rw [e0]; show (i 0).val / 5000 * 5000 ≤ (i 0).val ∧ (i 0).val < (i 0).val / 5000 * 5000 + 5000; omega
  | ⟨1, _⟩ =>
    show win2_6.index t (1 : Fin 2) * 1 ≤ (i 1).val ∧ (i 1).val < win2_6.index t (1 : Fin 2) * 1 + 1
    rw [e1]; omega

/-- The region's result array, whatever contents `V` the region is entered with: the link head of the two gathered
    feature arrays under the four parameter arrays. -/
theorem final (c : Dev nD) :
    (dat2 V c).arrAt 6 cfg2.N
      = Cert.Spec.head (V c main_v48) (V c main_v57) (V c main_arg10) (V c main_arg11) (V c main_arg12) (V c main_arg13) :=
  (dat2 V c).arrAt_eq_of_cover 6 (G V c) (fun t _ => flushed_eq V c t) cover

end Cert.KernelIdeal.Link

end
-- ==== Proof.Network.lean ====
/-
  The whole network as one function of the fourteen arguments: two SAGE layers, each fed by a mean over in-neighbours,
  then the link head on the rows of the two end nodes of every query. The three host-side maps — the neighbourhood mean
  and the two row selections — are parameters here: both programs compute them by the same gathers and scatter-adds, and
  the equivalence never looks inside them.
-/
import proofs.«163039_j23081154248744_1_alg».proof.Proof.Spec

noncomputable section

namespace Cert.Spec

open Idealize.ShloMosaic

/-- The result array `[100000, 1]` of the network with neighbourhood mean `agg` and end-node row selections `rows0`, `rows1`. -/
def network {I E : Type}
    (agg : I → I → ((⟨2, ![20000, 256]⟩ : Shape).Idx → EReal) → ((⟨2, ![20000, 256]⟩ : Shape).Idx → EReal))
    (rows0 rows1 : E → ((⟨2, ![20000, 256]⟩ : Shape).Idx → EReal) → ((⟨2, ![100000, 256]⟩ : Shape).Idx → EReal))
    (row col : I) (e : E) (emb : (⟨2, ![20000, 256]⟩ : Shape).Idx → EReal)
    (W1l : (⟨2, ![256, 256]⟩ : Shape).Idx → EReal) (b1 : (⟨1, ![256]⟩ : Shape).Idx → EReal) (W1r : (⟨2, ![256, 256]⟩ : Shape).Idx → EReal)
    (W2l : (⟨2, ![256, 256]⟩ : Shape).Idx → EReal) (b2 : (⟨1, ![256]⟩ : Shape).Idx → EReal) (W2r : (⟨2, ![256, 256]⟩ : Shape).Idx → EReal)
    (Wp1 : (⟨2, ![256, 256]⟩ : Shape).Idx → EReal) (bp1 : (⟨1, ![256]⟩ : Shape).Idx → EReal)
    (Wp2 : (⟨2, ![256, 1]⟩ : Shape).Idx → EReal) (bp2 : (⟨1, ![1]⟩ : Shape).Idx → EReal) :
    (⟨2, ![100000, 1]⟩ : Shape).Idx → EReal :=
  head
    (rows0 e (sage (agg row col (sageRelu (agg row col emb) emb W1l b1 W1r)) (sageRelu (agg row col emb) emb W1l b1 W1r) W2l b2 W2r))
    (rows1 e (sage (agg row col (sageRelu (agg row col emb) emb W1l b1 W1r)) (sageRelu (agg row col emb) emb W1l b1 W1r) W2l b2 W2r))
    Wp1 bp1 Wp2 bp2

end Cert.Spec

end
-- ==== Proof.KernelValue.lean ====
/-
  The kernel program's result array as the network of its arguments: the three regions' arrays (each the specification's
  function of what the region is entered with) chained through what the host stretches between them compute.
-/
import proofs.«163039_j23081154248744_1_alg».proof.Proof.Boundaries
import proofs.«163039_j23081154248744_1_alg».proof.Proof.Layer1
import proofs.«163039_j23081154248744_1_alg».proof.Proof.Layer2
import proofs.«163039_j23081154248744_1_alg».proof.Proof.Link
import proofs.«163039_j23081154248744_1_alg».proof.Proof.Network
import proofs.«163039_j23081154248744_1_alg».proof.Proof.RunNamed

noncomputable section

open Idealize.ShloMosaic Idealize.ShloMosaic.TcCoe Idealize.SL.Sem

namespace Cert.KernelIdeal.Whole

open Cert.KernelIdeal Cert.KernelIdeal.Gen Cert.KernelIdeal.Hosts

variable (m : (ℓ : Loc nD τ sig) → Buf (Elt Ideal) ℓ) (ρ : Dev nD → PrngReg)

/-- The network of the launch contents of the fourteen arguments, with the kernel program's host maps. -/
abbrev value (c : Dev nD) : Buf (Elt Ideal) ((c.tc : Thread nD τ).loc main_v58) :=
  Cert.Spec.network agg (fun e => rowsAt (ends0 e)) (fun e => rowsAt (ends1 e))
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13))

/-- The first region leaves the first layer's output. -/
theorem layer1 (c : Dev nD) :
    W2 m ρ c (Proc.devRef .tc main_v19)
      = Cert.Spec.sageRelu (agg (m ((c : Thread nD τ).loc main_arg0)) (m ((c : Thread nD τ).loc main_arg1)) (m ((c : Thread nD τ).loc main_arg3)))
          (m ((c : Thread nD τ).loc main_arg3)) (m ((c : Thread nD τ).loc main_arg4)) (m ((c : Thread nD τ).loc main_arg5)) (m ((c : Thread nD τ).loc main_arg6)) := by
  rw [W2_out, Cert.KernelIdeal.Layer1.final (V1 m ρ) c, V1_agg, V1_arg3, V1_arg4, V1_arg5, V1_arg6]

/-- The second region leaves the second layer's output, of the first layer's. -/
theorem layer2 (c : Dev nD) :
    W4 m ρ c (Proc.devRef .tc main_v39)
      = Cert.Spec.sage (agg (m ((c : Thread nD τ).loc main_arg0)) (m ((c : Thread nD τ).loc main_arg1)) (W2 m ρ c (Proc.devRef .tc main_v19)))
          (W2 m ρ c (Proc.devRef .tc main_v19)) (m ((c : Thread nD τ).loc main_arg7)) (m ((c : Thread nD τ).loc main_arg8)) (m ((c : Thread nD τ).loc main_arg9)) := by
  rw [W4_out, Cert.KernelIdeal.Layer2.final (V3 m ρ) c, V3_agg, V3_x, V3_arg7, V3_arg8, V3_arg9]

/-- The third region leaves the link head of the second layer's output at the queries' end nodes. -/
theorem link (c : Dev nD) :
    W6 m ρ c (Proc.devRef .tc main_v58)
      = Cert.Spec.head (rowsAt (ends0 (m ((c : Thread nD τ).loc main_arg2))) (W4 m ρ c (Proc.devRef .tc main_v39)))
          (rowsAt (ends1 (m ((c : Thread nD τ).loc main_arg2))) (W4 m ρ c (Proc.devRef .tc main_v39)))
          (m ((c : Thread nD τ).loc main_arg10)) (m ((c : Thread nD τ).loc main_arg11)) (m ((c : Thread nD τ).loc main_arg12)) (m ((c : Thread nD τ).loc main_arg13)) := by
  rw [W6_out, Cert.KernelIdeal.Link.final (V5 m ρ) c, V5_hi, V5_hj, V5_arg10, V5_arg11, V5_arg12, V5_arg13]

/-- The result array at the last boundary is the network of the arguments. -/
theorem result (c : Dev nD) : W6 m ρ c (Proc.devRef .tc main_v58) = value m c := by
  rw [link, layer2, layer1]
  rfl

/-- Every weakly fair execution of the kernel program ends with the result array at the network of the arguments and
    the arguments as launched. -/
theorem run : θ_run defs (onTc (τ := τ) (main (F := Ideal))) ⟨m, fun _ => 0, ρ⟩ (fun r => ∀ c : Dev nD,
      r.2.mem ((c.tc : Thread nD τ).loc main_v58) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c).1.trans (result m ρ c), (h c).2⟩) (Cert.KernelIdeal.Named.run_named m ρ)

end Cert.KernelIdeal.Whole

end
-- ==== Proof.RefValue.lean ====
/-
  The reference, stage by stage, is the specification: its two dense layers and its link head, each read at an element,
  are `Cert.Spec`'s sums — a host matrix product is the plain sum over the contracted axis, a bias broadcast along the rows
  reads the bias at the column, `relu` is the maximum with zero, and negate / exponential / add one / reciprocal is the
  logistic function. What feeds each stage (the neighbourhood means, the gathered end-node rows) is left as the reference
  computes it.
-/
import proofs.«163039_j23081154248744_1_alg».proof.Proof.Gen.ReferenceIdeal.Run
import proofs.«163039_j23081154248744_1_alg».proof.Proof.Gen.ReferenceIdeal.Read
import proofs.«163039_j23081154248744_1_alg».proof.Proof.Spec
import Idealize.ShloMosaic.Lib.IdealHost

noncomputable section

open Idealize.ShloMosaic Idealize.ShloMosaic.TcCoe Idealize.SL.Sem Idealize.ShloMosaic.ValueIdx

namespace Cert.ReferenceIdeal.RefValue

open Cert.ReferenceIdeal Cert.ReferenceIdeal.Read

/-! ## Where each stage reads its operands

At the element `(p, q)` a matrix product reads row `p` of its left operand and column `q` of its right operand, term `k` of
the sum at `(p, k)` and `(k, q)`; a bias broadcast along the rows reads the bias at `q`. -/

section Indices

variable (p : Fin 20000) (q k : Fin 256)

theorem lidx19 : lidx_main_v19 (ix2 p q) k = ix2 p k :=
  funext fun a => Fin.ext (by match a with | ⟨0, _⟩ => rfl | ⟨1, _⟩ => rfl)
theorem ridx19 : ridx_main_v19 (ix2 p q) k = ix2 k q :=
  funext fun a => Fin.ext (by match a with | ⟨0, _⟩ => rfl | ⟨1, _⟩ => rfl)
theorem lidx23 : lidx_main_v23 (ix2 p q) k = ix2 p k :=
  funext fun a => Fin.ext (by match a with | ⟨0, _⟩ => rfl | ⟨1, _⟩ => rfl)
theorem ridx23 : ridx_main_v23 (ix2 p q) k = ix2 k q :=
  funext fun a => Fin.ext (by match a with | ⟨0, _⟩ => rfl | ⟨1, _⟩ => rfl)
theorem bias21 : idx_main_v20 (idx_main_v21 (ix2 p q)) = ix1 q :=
  funext fun a => Fin.ext (by match a with | ⟨0, _⟩ => rfl)

theorem lidx45 : lidx_main_v45 (ix2 p q) k = ix2 p k :=
  funext fun a => Fin.ext (by match a with | ⟨0, _⟩ => rfl | ⟨1, _⟩ => rfl)
theorem ridx45 : ridx_main_v45 (ix2 p q) k = ix2 k q :=
  funext fun a => Fin.ext (by match a with | ⟨0, _⟩ => rfl | ⟨1, _⟩ => rfl)
theorem lidx49 : lidx_main_v49 (ix2 p q) k = ix2 p k :=
  funext fun a => Fin.ext (by match a with | ⟨0, _⟩ => rfl | ⟨1, _⟩ => rfl)
theorem ridx49 : ridx_main_v49 (ix2 p q) k = ix2 k q :=
  funext fun a => Fin.ext (by match a with | ⟨0, _⟩ => rfl | ⟨1, _⟩ => rfl)
theorem bias47 : idx_main_v46 (idx_main_v47 (ix2 p q)) = ix1 q :=
  funext fun a => Fin.ext (by match a with | ⟨0, _⟩ => rfl)

variable (e : Fin 100000) (u : Fin 1)

theorem lidx70 : lidx_main_v70 (ix2 e q) k = ix2 e k :=
  funext fun a => Fin.ext (by match a with | ⟨0, _⟩ => rfl | ⟨1, _⟩ => rfl)
theorem ridx70 : ridx_main_v70 (ix2 e q) k = ix2 k q :=
  funext fun a => Fin.ext (by match a with | ⟨0, _⟩ => rfl | ⟨1, _⟩ => rfl)
theorem bias72 : idx_main_v71 (idx_main_v72 (ix2 e q)) = ix1 q :=
  funext fun a => Fin.ext (by match a with | ⟨0, _⟩ => rfl)
theorem lidx75 : lidx_main_v75 (ix2 e u) k = ix2 e k :=
  funext fun a => Fin.ext (by match a with | ⟨0, _⟩ => rfl | ⟨1, _⟩ => rfl)
theorem ridx75 : ridx_main_v75 (ix2 e u) k = ix2 k u :=
  funext fun a => Fin.ext (by match a with | ⟨0, _⟩ => rfl | ⟨1, _⟩ => rfl)
theorem bias77 : idx_main_v76 (idx_main_v77 (ix2 e u)) = ix1 (0 : Fin 1) :=
  funext fun a => Fin.ext (by match a with | ⟨0, _⟩ => rfl)

end Indices

variable (x0 x1 : (⟨S320000, .i32⟩ : BufTy).Contents (Elt Ideal)) (x2 : (⟨S2x100000, .i32⟩ : BufTy).Contents (Elt Ideal))
  (x3 : (⟨S20000x256, .f32⟩ : BufTy).Contents (Elt Ideal)) (x4 : (⟨S256x256, .f32⟩ : BufTy).Contents (Elt Ideal))
  (x5 : (⟨S256, .f32⟩ : BufTy).Contents (Elt Ideal)) (x6 x7 : (⟨S256x256, .f32⟩ : BufTy).Contents (Elt Ideal))
  (x8 : (⟨S256, .f32⟩ : BufTy).Contents (Elt Ideal)) (x9 x10 : (⟨S256x256, .f32⟩ : BufTy).Contents (Elt Ideal))
  (x11 : (⟨S256, .f32⟩ : BufTy).Contents (Elt Ideal)) (x12 : (⟨S256x1, .f32⟩ : BufTy).Contents (Elt Ideal))
  (x13 : (⟨S1, .f32⟩ : BufTy).Contents (Elt Ideal))

/-- The first layer's output is the clamped dense part of the neighbourhood means and the embeddings. -/
theorem layer1_eq :
    val_main_v25 (F := Ideal) x0 x1 x3 x4 x5 x6 = Cert.Spec.sageRelu (val_main_v18 (F := Ideal) x0 x1 x3) x3 x4 x5 x6 := by
  funext j
  obtain ⟨p, q, rfl⟩ : ∃ (p : Fin 20000) (q : Fin 256), j = ix2 p q := ⟨j 0, j 1, eq_ix2 j⟩
  -- at (p, q): max(v24, 0), v24 = (A·Wl + b) + X·Wr, each product a sum over the contracted coordinate
  rw [Cert.Spec.sageRelu_apply, val_main_v25_apply, val_main_v24_apply, val_main_v22_apply, val_main_v19_apply,
    val_main_v21_apply, val_main_v20_apply, val_main_v23_apply, val_main_call0_v0_apply, val_main_call0_cst_apply]
  simp only [lidx19, ridx19, bias21, lidx23, ridx23, Ideal.maximumf_def, Ideal.addf_def, Ideal.ofBits_def,
    Ideal.ofBits_zero_f32]
  rfl

/-- The second layer's output is the dense part of the second neighbourhood means and the first layer's output. -/
theorem layer2_eq :
    val_main_v50 (F := Ideal) x0 x1 x3 x4 x5 x6 x7 x8 x9
      = Cert.Spec.sage (val_main_v44 (F := Ideal) x0 x1 x3 x4 x5 x6) (val_main_v25 (F := Ideal) x0 x1 x3 x4 x5 x6) x7 x8 x9 := by
  funext j
  obtain ⟨p, q, rfl⟩ : ∃ (p : Fin 20000) (q : Fin 256), j = ix2 p q := ⟨j 0, j 1, eq_ix2 j⟩
  -- at (p, q): (A·Wl + b) + X·Wr with X the first layer's output, each product a sum over the contracted coordinate
  rw [Cert.Spec.sage_apply, val_main_v50_apply, val_main_v48_apply, val_main_v45_apply, val_main_v47_apply,
    val_main_v46_apply, val_main_v49_apply]
  simp only [lidx45, ridx45, bias47, lidx49, ridx49, Ideal.addf_def]
  rfl

/-- The hidden layer of the link head at query `e`, hidden unit `k`: the clamped product of the element-wise product of the
two gathered rows with the first weight matrix, plus its bias. -/
theorem hidden_at (e : Fin 100000) (k : Fin 256) :
    val_main_v74 (F := Ideal) x0 x1 x2 x3 x4 x5 x6 x7 x8 x9 x10 x11 (ix2 e k)
      = Cert.Spec.hiddenAt (val_main_v59 (F := Ideal) x0 x1 x2 x3 x4 x5 x6 x7 x8 x9)
          (val_main_v68 (F := Ideal) x0 x1 x2 x3 x4 x5 x6 x7 x8 x9) x10 x11 e k := by
  -- at (e, k): max((hi ⊙ hj)·W1 + b1, 0), the product a sum over l of (hi(e, l) · hj(e, l)) · W1(l, k)
  rw [val_main_v74_apply, val_main_v73_apply, val_main_v70_apply, val_main_v72_apply, val_main_v71_apply,
    val_main_call1_v0_apply, val_main_call1_cst_apply]
  simp only [lidx70, ridx70, bias72, val_main_v69_apply, Ideal.mulf_def, Ideal.maximumf_def, Ideal.addf_def,
    Ideal.ofBits_def, Ideal.ofBits_zero_f32]
  rfl

/-- The result is the link head of the two gathered row arrays. -/
theorem head_eq :
    val_main_v84 (F := Ideal) x0 x1 x2 x3 x4 x5 x6 x7 x8 x9 x10 x11 x12 x13
      = Cert.Spec.head (val_main_v59 (F := Ideal) x0 x1 x2 x3 x4 x5 x6 x7 x8 x9) (val_main_v68 (F := Ideal) x0 x1 x2 x3 x4 x5 x6 x7 x8 x9)
          x10 x11 x12 x13 := by
  funext j
  obtain ⟨e, u, rfl⟩ : ∃ (e : Fin 100000) (u : Fin 1), j = ix2 e u := ⟨j 0, j 1, eq_ix2 j⟩
  -- at (e, u): 1 / (1 + exp(−z)) with z = hidden(e, ·)·W2 + b2; the two literal words are the real one
  rw [Cert.Spec.head_apply, val_main_v84_apply, val_main_v83_apply, val_main_cst_15_apply, val_main_v82_apply,
    val_main_v81_apply, val_main_cst_14_apply, val_main_v80_apply, val_main_v79_apply, val_main_v78_apply,
    val_main_v75_apply, val_main_v77_apply, val_main_v76_apply]
  simp only [lidx75, ridx75, bias77, hidden_at, Ideal.hostDivf_def, Ideal.addf_def, Ideal.hostUnary_exp_def,
    Ideal.hostNegf_def, Ideal.negf_def, Ideal.ofBits_def, Ideal.ofBits_one_f32]
  rfl

end Cert.ReferenceIdeal.RefValue

end
-- ==== Proof.RefWhole.lean ====
/-
  The reference program's result as the same network of its arguments: its stages for the two layers and the link head are
  the specification's functions, and its host maps — the mean over in-neighbours, the end-node rows — are, operation by
  operation, the kernel program's.
-/
import proofs.«163039_j23081154248744_1_alg».proof.Proof.RefValue
import proofs.«163039_j23081154248744_1_alg».proof.Proof.Boundaries
import proofs.«163039_j23081154248744_1_alg».proof.Proof.Network

noncomputable section

open Idealize.ShloMosaic Idealize.ShloMosaic.TcCoe Idealize.SL.Sem

namespace Cert.ReferenceIdeal.Whole

open Cert.ReferenceIdeal Cert.ReferenceIdeal.Read Cert.ReferenceIdeal.RefValue
open Cert.KernelIdeal.Hosts (agg rowsAt ends0 ends1)

variable (x0 x1 : (⟨S320000, .i32⟩ : BufTy).Contents (Elt Ideal)) (x2 : (⟨S2x100000, .i32⟩ : BufTy).Contents (Elt Ideal))
  (x3 : (⟨S20000x256, .f32⟩ : BufTy).Contents (Elt Ideal)) (x4 : (⟨S256x256, .f32⟩ : BufTy).Contents (Elt Ideal))
  (x5 : (⟨S256, .f32⟩ : BufTy).Contents (Elt Ideal)) (x6 x7 : (⟨S256x256, .f32⟩ : BufTy).Contents (Elt Ideal))
  (x8 : (⟨S256, .f32⟩ : BufTy).Contents (Elt Ideal)) (x9 x10 : (⟨S256x256, .f32⟩ : BufTy).Contents (Elt Ideal))
  (x11 : (⟨S256, .f32⟩ : BufTy).Contents (Elt Ideal)) (x12 : (⟨S256x1, .f32⟩ : BufTy).Contents (Elt Ideal))
  (x13 : (⟨S1, .f32⟩ : BufTy).Contents (Elt Ideal))

/-- The reference's first neighbourhood means: the same gather, scatter-adds, clamp of the degree and quotient. -/
theorem agg1 : val_main_v18 (F := Ideal) x0 x1 x3 = agg x0 x1 x3 := by
  unfold val_main_v18 val_main_v9 val_main_v17 val_main_v16 val_main_v15 val_main_v14 val_main_v13 val_main_v12 val_main_v11
    val_main_v10 val_main_v8 val_main_v7 val_main_v6 val_main_v5 val_main_v4 val_main_v3 val_main_v2 val_main_v1 val_main_v0
    val_main_c val_main_c_0 val_main_cst val_main_cst_1 val_main_cst_2 val_main_cst_3 agg
  rfl

/-- Its second neighbourhood means, of the first layer's output. -/
theorem agg2 : val_main_v44 (F := Ideal) x0 x1 x3 x4 x5 x6 = agg x0 x1 (val_main_v25 (F := Ideal) x0 x1 x3 x4 x5 x6) := by
  unfold val_main_v44 val_main_v35 val_main_v43 val_main_v42 val_main_v41 val_main_v40 val_main_v39 val_main_v38 val_main_v37
    val_main_v36 val_main_v34 val_main_v33 val_main_v32 val_main_v31 val_main_v30 val_main_v29 val_main_v28 val_main_v27 val_main_v26
    val_main_c_4 val_main_c_5 val_main_cst_6 val_main_cst_7 val_main_cst_8 val_main_cst_9 agg
  rfl

/-- The rows of the second layer's output at the queries' first end nodes. -/
theorem rows0 : val_main_v59 (F := Ideal) x0 x1 x2 x3 x4 x5 x6 x7 x8 x9
    = rowsAt (ends0 x2) (val_main_v50 (F := Ideal) x0 x1 x3 x4 x5 x6 x7 x8 x9) := by
  unfold val_main_v59 val_main_v58 val_main_v57 val_main_v56 val_main_v55 val_main_v54 val_main_v53 val_main_v52 val_main_v51
    val_main_c_10 val_main_c_11 rowsAt ends0
  rfl

/-- The same at the second end nodes. -/
theorem rows1 : val_main_v68 (F := Ideal) x0 x1 x2 x3 x4 x5 x6 x7 x8 x9
    = rowsAt (ends1 x2) (val_main_v50 (F := Ideal) x0 x1 x3 x4 x5 x6 x7 x8 x9) := by
  unfold val_main_v68 val_main_v67 val_main_v66 val_main_v65 val_main_v64 val_main_v63 val_main_v62 val_main_v61 val_main_v60
    val_main_c_12 val_main_c_13 rowsAt ends1
  rfl

/-- The reference's result stage is the network of its arguments. -/
theorem stage_eq : val_main_v84 (F := Ideal) x0 x1 x2 x3 x4 x5 x6 x7 x8 x9 x10 x11 x12 x13
    = Cert.Spec.network agg (fun e => rowsAt (ends0 e)) (fun e => rowsAt (ends1 e)) x0 x1 x2 x3 x4 x5 x6 x7 x8 x9 x10 x11 x12 x13 := by
  rw [head_eq, rows0, rows1, layer2_eq, agg2, layer1_eq, agg1]
  rfl

variable (m : (ℓ : Loc nD τ sig) → Buf (Elt Ideal) ℓ)

/-- The term the reference's run ends at is the network of the launch contents of its arguments. -/
theorem result (c : Dev nD) :
    Cert.ReferenceIdeal.Value.res_main_v84 m c
      = Cert.Spec.network agg (fun e => rowsAt (ends0 e)) (fun e => rowsAt (ends1 e))
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) :=
  (val_main_v84_eq m c).trans (stage_eq _ _ _ _ _ _ _ _ _ _ _ _ _ _)

end Cert.ReferenceIdeal.Whole

end
-- ==== Proof.lean ====
/-
  A two-layer GraphSAGE encoder with a link-prediction head, as a Pallas program of three pipelined regions among host
  gathers and scatter-adds, against its jnp reference: equal results over the extended reals.

  Both programs compute, per layer, the mean of the node features over in-neighbours on the host by the same operations
  (gather the source rows, scatter-add them per destination, divide by the in-degree clamped at one), and both gather the
  rows of the two end nodes of every query the same way; these host maps are carried whole and never opened. What differs
  is where the dense algebra runs. The kernel program computes `mean · Wl + b + x · Wr` (clamped at zero in the first
  layer) tile by tile, 2000 node rows at a time, each product into a zero accumulator; the reference computes it by
  whole-array products. The kernel program's head multiplies the two end rows entry by entry, applies
  `max(· W1 + b1, 0)`, then `· W2 + b2` and the logistic function, on tiles of 5000 queries; the reference spells the
  logistic function as `1 / (1 + e^(−z))`. At an element every such product is the plain sum over the 256 contracted
  features, which neither a tiling of the rows nor a zero accumulator changes; the tiles' row ranges cover each result
  array exactly; and `1 / (1 + e^(−z))` is the logistic function on all extended reals. No law used needs the inputs
  finite, so the precondition is never opened. The two word-level and idealized kernel programs run to the end with their
  arguments unchanged by the launch proof over the three regions; the reference by its run read back. The idealization
  rewrote no operation, so its ledger is empty.
-/
import proofs.«163039_j23081154248744_1_alg».proof.Defs
import proofs.«163039_j23081154248744_1_alg».proof.Proof.Gen.Kernel
import proofs.«163039_j23081154248744_1_alg».proof.Proof.Gen.Kernel.Skeleton
import proofs.«163039_j23081154248744_1_alg».proof.Proof.Gen.Kernel.Launch
import proofs.«163039_j23081154248744_1_alg».proof.Proof.Gen.Kernel.Points
import proofs.«163039_j23081154248744_1_alg».proof.Proof.Gen.Kernel.Frame
import proofs.«163039_j23081154248744_1_alg».proof.Proof.Gen.KernelIdeal
import proofs.«163039_j23081154248744_1_alg».proof.Proof.Gen.KernelIdeal.Skeleton
import proofs.«163039_j23081154248744_1_alg».proof.Proof.Gen.KernelIdeal.Launch
import proofs.«163039_j23081154248744_1_alg».proof.Proof.Gen.KernelIdeal.Points
import proofs.«163039_j23081154248744_1_alg».proof.Proof.Gen.KernelIdeal.Frame
import proofs.«163039_j23081154248744_1_alg».proof.Proof.Gen.ReferenceIdeal
import proofs.«163039_j23081154248744_1_alg».proof.Proof.Gen.ReferenceIdeal.Run
import proofs.«163039_j23081154248744_1_alg».proof.Proof.Gen.Pre_finite_inputs
import proofs.«163039_j23081154248744_1_alg».proof.Proof.KernelValue
import proofs.«163039_j23081154248744_1_alg».proof.Proof.RefWhole
import Idealize.ShloMosaic.Adequacy
import Idealize.ShloMosaic.Init

noncomputable section

namespace Cert.Proof

open Idealize.ShloMosaic Idealize.SL.Sem

/-- The word-level kernel program runs to the end with its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs to the end with its arguments unchanged: its run read back, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the network of those arguments. -/
theorem algebraic : Cert.algebraic_KernelIdeal_ReferenceIdeal := by
  intro m ρ m' ρ' _ hagree
  refine ⟨fun c => Cert.KernelIdeal.Whole.value m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Whole.result m' c]
  obtain ⟨h0, h1, h2, h3, h4, h5, h6, h7, h8, h9, h10, h11, h12, h13⟩ := hagree c
  rw [h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
